-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x119 : Shape := ⟨2, ![2048, 119]⟩
abbrev S5494 : Shape := ⟨1, ![5494]⟩
abbrev S_ : Shape := ⟨0, ![]⟩

class Facts : Prop where
  bcast_S_S2048x119 : S_.BroadcastsInDim S2048x119 (![] : Fin 0 → Fin S2048x119.rank)
  reducesTo_S2048x119_S_d0_1 : S2048x119.ReducesTo [0, 1] S_
  h_S_ : 0 < S_.numel
  bcast_S_S5494 : S_.BroadcastsInDim S5494 (![] : Fin 0 → Fin S5494.rank)
  reducesTo_S5494_S_d0 : S5494.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2048x119 .f32) (main_arg1 : FVec F S5494 .f32) (main_arg2 : IVec S5494 32) (main_arg3 : IVec S5494 32) (main_arg4 : IVec S5494 32) : IVec S_ 1 :=
  let main_v0 : FVec F S2048x119 .f32 := Host.absf main_arg0
  let main_cst : FVec F S_ .f32 := constant S_ .f32 0x7F800000#32
  let main_v1 : FVec F S2048x119 .f32 := broadcastInDim S2048x119 ![] bcast_S_S2048x119 main_cst
  let main_v2 : IVec S2048x119 1 := cmpf .olt main_v0 main_v1
  let main_c : IVec S_ 1 := constantI S_ 1 1#1
  let main_v3 : IVec S_ 1 := (fun x v => Host.reduce IntOp.andi x v reducesTo_S2048x119_S_d0_1 h_S_) main_v2 main_c
  let main_v4 : FVec F S5494 .f32 := Host.absf main_arg1
  let main_cst_0 : FVec F S_ .f32 := constant S_ .f32 0x7F800000#32
  let main_v5 : FVec F S5494 .f32 := broadcastInDim S5494 ![] bcast_S_S5494 main_cst_0
  let main_v6 : IVec S5494 1 := cmpf .olt main_v4 main_v5
  let main_c_1 : IVec S_ 1 := constantI S_ 1 1#1
  let main_v7 : IVec S_ 1 := (fun x v => Host.reduce IntOp.andi x v reducesTo_S5494_S_d0 h_S_) main_v6 main_c_1
  let main_v8 : IVec S_ 1 := andi main_v3 main_v7
  let main_c_2 : IVec S_ 32 := constantI S_ 32 0#32
  let main_v9 : IVec S5494 32 := broadcastInDim S5494 ![] bcast_S_S5494 main_c_2
  let main_v10 : IVec S5494 1 := cmpi .sge main_arg2 main_v9
  let main_c_3 : IVec S_ 1 := constantI S_ 1 1#1
  let main_v11 : IVec S_ 1 := (fun x v => Host.reduce IntOp.andi x v reducesTo_S5494_S_d0 h_S_) main_v10 main_c_3
  let main_v12 : IVec S_ 1 := andi main_v8 main_v11
  let main_c_4 : IVec S_ 32 := constantI S_ 32 17#32
  let main_v13 : IVec S5494 32 := broadcastInDim S5494 ![] bcast_S_S5494 main_c_4
  let main_v14 : IVec S5494 1 := cmpi .slt main_arg2 main_v13
  let main_c_5 : IVec S_ 1 := constantI S_ 1 1#1
  let main_v15 : IVec S_ 1 := (fun x v => Host.reduce IntOp.andi x v reducesTo_S5494_S_d0 h_S_) main_v14 main_c_5
  fn_part1 (F := F) main_v12 main_v15
-- ==== Kernel.lean ====
abbrev S2048x119 : Shape := ⟨2, ![2048, 119]⟩
abbrev S5494 : Shape := ⟨1, ![5494]⟩
abbrev S_ : Shape := ⟨0, ![]⟩
abbrev S5494x1 : Shape := ⟨2, ![5494, 1]⟩
abbrev S1x17 : Shape := ⟨2, ![1, 17]⟩
abbrev S5494x17 : Shape := ⟨2, ![5494, 17]⟩
abbrev S17x5494 : Shape := ⟨2, ![17, 5494]⟩
abbrev S7x7 : Shape := ⟨2, ![7, 7]⟩
abbrev S17x1x5494x1 : Shape := ⟨4, ![17, 1, 5494, 1]⟩
abbrev S1x7x1x7 : Shape := ⟨4, ![1, 7, 1, 7]⟩
abbrev S17x7x5494x7 : Shape := ⟨4, ![17, 7, 5494, 7]⟩
abbrev S119x38458 : Shape := ⟨2, ![119, 38458]⟩
abbrev S2048x38458 : Shape := ⟨2, ![2048, 38458]⟩
abbrev S64x119 : Shape := ⟨2, ![64, 119]⟩
abbrev S64x38458 : Shape := ⟨2, ![64, 38458]⟩
abbrev S2048x5494x1x7 : Shape := ⟨4, ![2048, 5494, 1, 7]⟩

abbrev nBuf : Space → Nat
  | .hbm => 55
  | .vmem => 5
  | .smem => 0
  | _ => 0

abbrev bufTy : (tb : Table) → Fin (tcTables nBuf tb) → BufTy
  | .hbm, ⟨0, _⟩ => ⟨S2048x119, .f32⟩
  | .hbm, ⟨1, _⟩ => ⟨S5494, .f32⟩
  | .hbm, ⟨2, _⟩ => ⟨S5494, .i32⟩
  | .hbm, ⟨3, _⟩ => ⟨S5494, .i32⟩
  | .hbm, ⟨4, _⟩ => ⟨S5494, .i32⟩
  | .hbm, ⟨5, _⟩ => ⟨S_, .i32⟩
  | .hbm, ⟨6, _⟩ => ⟨S5494, .i32⟩
  | .hbm, ⟨7, _⟩ => ⟨S5494, .i32⟩
  | .hbm, ⟨8, _⟩ => ⟨S5494, .i32⟩
  | .hbm, ⟨9, _⟩ => ⟨S5494x1, .i32⟩
  | .hbm, ⟨10, _⟩ => ⟨S1x17, .i32⟩
  | .hbm, ⟨11, _⟩ => ⟨S5494x17, .i32⟩
  | .hbm, ⟨12, _⟩ => ⟨S5494x17, .i32⟩
  | .hbm, ⟨13, _⟩ => ⟨S5494x17, .i1⟩
  | .hbm, ⟨14, _⟩ => ⟨S5494x17, .f32⟩
  | .hbm, ⟨15, _⟩ => ⟨S5494x1, .f32⟩
  | .hbm, ⟨16, _⟩ => ⟨S5494x17, .f32⟩
  | .hbm, ⟨17, _⟩ => ⟨S5494x17, .f32⟩
  | .hbm, ⟨18, _⟩ => ⟨S_, .f32⟩
  | .hbm, ⟨19, _⟩ => ⟨S5494x17, .f32⟩
  | .hbm, ⟨20, _⟩ => ⟨S_, .i32⟩
  | .hbm, ⟨21, _⟩ => ⟨S5494, .i32⟩
  | .hbm, ⟨22, _⟩ => ⟨S5494, .i1⟩
  | .hbm, ⟨23, _⟩ => ⟨S_, .i32⟩
  | .hbm, ⟨24, _⟩ => ⟨S5494, .i32⟩
  | .hbm, ⟨25, _⟩ => ⟨S5494, .i32⟩
  | .hbm, ⟨26, _⟩ => ⟨S5494, .i32⟩
  | .hbm, ⟨27, _⟩ => ⟨S5494x1, .i32⟩
  | .hbm, ⟨28, _⟩ => ⟨S5494x17, .f32⟩
  | .hbm, ⟨29, _⟩ => ⟨S_, .i32⟩
  | .hbm, ⟨30, _⟩ => ⟨S5494, .i32⟩
  | .hbm, ⟨31, _⟩ => ⟨S5494, .i1⟩
  | .hbm, ⟨32, _⟩ => ⟨S_, .i32⟩
  | .hbm, ⟨33, _⟩ => ⟨S5494, .i32⟩
  | .hbm, ⟨34, _⟩ => ⟨S5494, .i32⟩
  | .hbm, ⟨35, _⟩ => ⟨S5494, .i32⟩
  | .hbm, ⟨36, _⟩ => ⟨S5494x1, .i32⟩
  | .hbm, ⟨37, _⟩ => ⟨S5494x17, .f32⟩
  | .hbm, ⟨38, _⟩ => ⟨S17x5494, .f32⟩
  | .hbm, ⟨39, _⟩ => ⟨S7x7, .i32⟩
  | .hbm, ⟨40, _⟩ => ⟨S7x7, .i32⟩
  | .hbm, ⟨41, _⟩ => ⟨S_, .i32⟩
  | .hbm, ⟨42, _⟩ => ⟨S7x7, .i32⟩
  | .hbm, ⟨43, _⟩ => ⟨S7x7, .i32⟩
  | .hbm, ⟨44, _⟩ => ⟨S7x7, .i1⟩
  | .hbm, ⟨45, _⟩ => ⟨S7x7, .f32⟩
  | .hbm, ⟨46, _⟩ => ⟨S17x1x5494x1, .f32⟩
  | .hbm, ⟨47, _⟩ => ⟨S1x7x1x7, .f32⟩
  | .hbm, ⟨48, _⟩ => ⟨S17x7x5494x7, .f32⟩
  | .hbm, ⟨49, _⟩ => ⟨S17x7x5494x7, .f32⟩
  | .hbm, ⟨50, _⟩ => ⟨S17x7x5494x7, .f32⟩
  | .hbm, ⟨51, _⟩ => ⟨S119x38458, .f32⟩
  | .hbm, ⟨52, _⟩ => ⟨S119x38458, .bf16⟩
  | .hbm, ⟨53, _⟩ => ⟨S2048x38458, .f32⟩
  | .hbm, ⟨54, _⟩ => ⟨S2048x5494x1x7, .f32⟩
  | .local _ .vmem, ⟨0, _⟩ => ⟨S64x119, .f32⟩
  | .local _ .vmem, ⟨1, _⟩ => ⟨S64x119, .f32⟩
  | .local _ .vmem, ⟨2, _⟩ => ⟨S119x38458, .bf16⟩
  | .local _ .vmem, ⟨3, _⟩ => ⟨S64x38458, .f32⟩
  | .local _ .vmem, ⟨4, _⟩ => ⟨S64x38458, .f32⟩
  | _, _ => ⟨S2048x119, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x119 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S119x38458 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x38458 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S5494 : S_.BroadcastsInDim S5494 (![] : Fin 0 → Fin S5494.rank)
  bcast_S5494_S5494x1_0 : S5494.BroadcastsInDim S5494x1 (![0] : Fin 1 → Fin S5494x1.rank)
  bcast_S5494x1_S5494x17_0_1 : S5494x1.BroadcastsInDim S5494x17 (![0, 1] : Fin 2 → Fin S5494x17.rank)
  bcast_S1x17_S5494x17_0_1 : S1x17.BroadcastsInDim S5494x17 (![0, 1] : Fin 2 → Fin S5494x17.rank)
  bcast_S_S5494x17 : S_.BroadcastsInDim S5494x17 (![] : Fin 0 → Fin S5494x17.rank)
  transposes_S5494x17_S17x5494_1_0 : S5494x17.Transposes [1, 0] S17x5494
  bcast_S_S7x7 : S_.BroadcastsInDim S7x7 (![] : Fin 0 → Fin S7x7.rank)
  bcast_S17x5494_S17x1x5494x1_0_2 : S17x5494.BroadcastsInDim S17x1x5494x1 (![0, 2] : Fin 2 → Fin S17x1x5494x1.rank)
  bcast_S7x7_S1x7x1x7_1_3 : S7x7.BroadcastsInDim S1x7x1x7 (![1, 3] : Fin 2 → Fin S1x7x1x7.rank)
  bcast_S17x1x5494x1_S17x7x5494x7_0_1_2_3 : S17x1x5494x1.BroadcastsInDim S17x7x5494x7 (![0, 1, 2, 3] : Fin 4 → Fin S17x7x5494x7.rank)
  bcast_S1x7x1x7_S17x7x5494x7_0_1_2_3 : S1x7x1x7.BroadcastsInDim S17x7x5494x7 (![0, 1, 2, 3] : Fin 4 → Fin S17x7x5494x7.rank)
  shapeCasts_S17x7x5494x7_S119x38458 : S17x7x5494x7.ShapeCasts S119x38458
  bitsLt_bf16_f32 : FTy.bits .bf16 < FTy.bits .f32
  inb_S64x119_S64x119_0_0 : ∀ a, (![0, 0] : Fin 2 → Nat) a + S64x119.size a ≤ S64x119.size a
  h_S64x119 : 0 < S64x119.numel
  inb_S119x38458_S119x38458_0_0 : ∀ a, (![0, 0] : Fin 2 → Nat) a + S119x38458.size a ≤ S119x38458.size a
  h_S119x38458 : 0 < S119x38458.numel
  shapeCasts_S119x38458_S119x38458 : S119x38458.ShapeCasts S119x38458
  inb_S64x38458_S64x38458_0_0 : ∀ a, (![0, 0] : Fin 2 → Nat) a + S64x38458.size a ≤ S64x38458.size a
  h_S64x38458 : 0 < S64x38458.numel
  shapeCasts_S2048x38458_S2048x5494x1x7 : S2048x38458.ShapeCasts S2048x5494x1x7
  scatter_S5494x17_S5494x1_S5494x17_1_0_0_1_wf : ScatterDims.WF S5494x17 S5494x1 S5494x17 [1] [0] [0] 1
  gather_S5494x17_S5494x1_S5494x17_1_0_n_n_0_1_117_wf : GatherDims.WF S5494x17 S5494x1 S5494x17 [1] [0] [] [0] [] 1 ![1, 17]
  dot_S64x119_S119x38458_S64x38458_1_0_0_1_n_n_wf : DotDims.WF S64x119 S119x38458 S64x38458 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x119.size a ≤ S2048x119.size a
  hwx0_0 : ∀ i : grid0.Coords, EltTy.bits .f32 = 32 ∨ (Rect.block (s := S2048x119) S64x119.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S119x38458.size a ≤ S119x38458.size a
  hwx0_1 : ∀ i : grid0.Coords, EltTy.bits .bf16 = 32 ∨ (Rect.block (s := S119x38458) S119x38458.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x38458.size a ≤ S2048x38458.size a
  hwx0_2 : ∀ i : grid0.Coords, EltTy.bits .f32 = 32 ∨ (Rect.block (s := S2048x38458) S64x38458.size (cc0_transform_2 i) (hinb0_2 i)).WholeWords (EltTy.packing .f32)

variable [Facts₀]

def scatter_S5494x17_S5494x1_S5494x17_1_0_0_1 : ScatterDims S5494x17 S5494x1 S5494x17 where
  updateWindowDims := [1]
  insertedWindowDims := [0]
  scatterDimsToOperandDims := [0]
  indexVectorDim := 1
  wf := scatter_S5494x17_S5494x1_S5494x17_1_0_0_1_wf
def gather_S5494x17_S5494x1_S5494x17_1_0_n_n_0_1_117 : GatherDims S5494x17 S5494x1 S5494x17 where
  offsetDims := [1]
  collapsedSliceDims := [0]
  operandBatchingDims := []
  startIndicesBatchingDims := []
  startIndexMap := [0]
  indexVectorDim := 1
  sliceSizes := ![1, 17]
  wf := gather_S5494x17_S5494x1_S5494x17_1_0_n_n_0_1_117_wf
def dot_S64x119_S119x38458_S64x38458_1_0_0_1_n_n : DotDims S64x119 S119x38458 S64x38458 where
  lhsContracting := [1]
  rhsContracting := [0]
  lhsNonContracting := [0]
  rhsNonContracting := [1]
  lhsBatch := []
  rhsBatch := []
  wf := dot_S64x119_S119x38458_S64x38458_1_0_0_1_n_n_wf

abbrev win0_0 : Pipeline.Window sig grid0 :=
  Pipeline.Window.ofSpec (Memref.whole main_arg0) S64x119.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S119x38458.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S64x38458.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x119 : Shape := ⟨2, ![2048, 119]⟩
abbrev S5494 : Shape := ⟨1, ![5494]⟩
abbrev S2048x17x7 : Shape := ⟨3, ![2048, 17, 7]⟩
abbrev S_ : Shape := ⟨0, ![]⟩
abbrev S5494x1 : Shape := ⟨2, ![5494, 1]⟩
abbrev S2048x5494x7 : Shape := ⟨3, ![2048, 5494, 7]⟩
abbrev S1x5494x1 : Shape := ⟨3, ![1, 5494, 1]⟩
abbrev S2048x5494x1x7 : Shape := ⟨4, ![2048, 5494, 1, 7]⟩

abbrev nBuf : Space → Nat
  | .hbm => 43
  | .vmem => 0
  | .smem => 0
  | _ => 0

abbrev bufTy : (tb : Table) → Fin (tcTables nBuf tb) → BufTy
  | .hbm, ⟨0, _⟩ => ⟨S2048x119, .f32⟩
  | .hbm, ⟨1, _⟩ => ⟨S5494, .f32⟩
  | .hbm, ⟨2, _⟩ => ⟨S5494, .i32⟩
  | .hbm, ⟨3, _⟩ => ⟨S5494, .i32⟩
  | .hbm, ⟨4, _⟩ => ⟨S5494, .i32⟩
  | .hbm, ⟨5, _⟩ => ⟨S2048x17x7, .f32⟩
  | .hbm, ⟨6, _⟩ => ⟨S_, .i32⟩
  | .hbm, ⟨7, _⟩ => ⟨S5494, .i32⟩
  | .hbm, ⟨8, _⟩ => ⟨S5494, .i1⟩
  | .hbm, ⟨9, _⟩ => ⟨S_, .i32⟩
  | .hbm, ⟨10, _⟩ => ⟨S5494, .i32⟩
  | .hbm, ⟨11, _⟩ => ⟨S5494, .i32⟩
  | .hbm, ⟨12, _⟩ => ⟨S5494, .i32⟩
  | .hbm, ⟨13, _⟩ => ⟨S5494x1, .i32⟩
  | .hbm, ⟨14, _⟩ => ⟨S2048x5494x7, .f32⟩
  | .hbm, ⟨15, _⟩ => ⟨S1x5494x1, .f32⟩
  | .hbm, ⟨16, _⟩ => ⟨S2048x5494x7, .f32⟩
  | .hbm, ⟨17, _⟩ => ⟨S2048x5494x7, .f32⟩
  | .hbm, ⟨18, _⟩ => ⟨S_, .i32⟩
  | .hbm, ⟨19, _⟩ => ⟨S5494, .i32⟩
  | .hbm, ⟨20, _⟩ => ⟨S5494, .i32⟩
  | .hbm, ⟨21, _⟩ => ⟨S5494, .i32⟩
  | .hbm, ⟨22, _⟩ => ⟨S_, .f32⟩
  | .hbm, ⟨23, _⟩ => ⟨S2048x5494x7, .f32⟩
  | .hbm, ⟨24, _⟩ => ⟨S_, .i32⟩
  | .hbm, ⟨25, _⟩ => ⟨S5494, .i32⟩
  | .hbm, ⟨26, _⟩ => ⟨S5494, .i1⟩
  | .hbm, ⟨27, _⟩ => ⟨S_, .i32⟩
  | .hbm, ⟨28, _⟩ => ⟨S5494, .i32⟩
  | .hbm, ⟨29, _⟩ => ⟨S5494, .i32⟩
  | .hbm, ⟨30, _⟩ => ⟨S5494, .i32⟩
  | .hbm, ⟨31, _⟩ => ⟨S5494x1, .i32⟩
  | .hbm, ⟨32, _⟩ => ⟨S2048x5494x7, .f32⟩
  | .hbm, ⟨33, _⟩ => ⟨S_, .i32⟩
  | .hbm, ⟨34, _⟩ => ⟨S5494, .i32⟩
  | .hbm, ⟨35, _⟩ => ⟨S5494, .i1⟩
  | .hbm, ⟨36, _⟩ => ⟨S_, .i32⟩
  | .hbm, ⟨37, _⟩ => ⟨S5494, .i32⟩
  | .hbm, ⟨38, _⟩ => ⟨S5494, .i32⟩
  | .hbm, ⟨39, _⟩ => ⟨S5494, .i32⟩
  | .hbm, ⟨40, _⟩ => ⟨S5494x1, .i32⟩
  | .hbm, ⟨41, _⟩ => ⟨S2048x5494x7, .f32⟩
  | .hbm, ⟨42, _⟩ => ⟨S2048x5494x1x7, .f32⟩
  | _, _ => ⟨S2048x119, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  shapeCasts_S2048x119_S2048x17x7 : S2048x119.ShapeCasts S2048x17x7
  bcast_S_S5494 : S_.BroadcastsInDim S5494 (![] : Fin 0 → Fin S5494.rank)
  bcast_S5494_S5494x1_0 : S5494.BroadcastsInDim S5494x1 (![0] : Fin 1 → Fin S5494x1.rank)
  bcast_S5494_S1x5494x1_1 : S5494.BroadcastsInDim S1x5494x1 (![1] : Fin 1 → Fin S1x5494x1.rank)
  bcast_S1x5494x1_S2048x5494x7_0_1_2 : S1x5494x1.BroadcastsInDim S2048x5494x7 (![0, 1, 2] : Fin 3 → Fin S2048x5494x7.rank)
  bcast_S_S2048x5494x7 : S_.BroadcastsInDim S2048x5494x7 (![] : Fin 0 → Fin S2048x5494x7.rank)
  shapeCasts_S2048x5494x7_S2048x5494x1x7 : S2048x5494x7.ShapeCasts S2048x5494x1x7
  gather_S2048x17x7_S5494x1_S2048x5494x7_02_1_n_n_1_1_204817_wf : GatherDims.WF S2048x17x7 S5494x1 S2048x5494x7 [0, 2] [1] [] [1] [] 1 ![2048, 1, 7]
  scatter_S2048x5494x7_S5494x1_S2048x5494x7_02_1_1_1_wf : ScatterDims.WF S2048x5494x7 S5494x1 S2048x5494x7 [0, 2] [1] [1] 1
  gather_S2048x5494x7_S5494x1_S2048x5494x7_02_1_n_n_1_1_204817_wf : GatherDims.WF S2048x5494x7 S5494x1 S2048x5494x7 [0, 2] [1] [] [1] [] 1 ![2048, 1, 7]

variable [Facts₀]

def gather_S2048x17x7_S5494x1_S2048x5494x7_02_1_n_n_1_1_204817 : GatherDims S2048x17x7 S5494x1 S2048x5494x7 where
  offsetDims := [0, 2]
  collapsedSliceDims := [1]
  operandBatchingDims := []
  startIndicesBatchingDims := []
  startIndexMap := [1]
  indexVectorDim := 1
  sliceSizes := ![2048, 1, 7]
  wf := gather_S2048x17x7_S5494x1_S2048x5494x7_02_1_n_n_1_1_204817_wf
def scatter_S2048x5494x7_S5494x1_S2048x5494x7_02_1_1_1 : ScatterDims S2048x5494x7 S5494x1 S2048x5494x7 where
  updateWindowDims := [0, 2]
  insertedWindowDims := [1]
  scatterDimsToOperandDims := [1]
  indexVectorDim := 1
  wf := scatter_S2048x5494x7_S5494x1_S2048x5494x7_02_1_1_1_wf
def gather_S2048x5494x7_S5494x1_S2048x5494x7_02_1_n_n_1_1_204817 : GatherDims S2048x5494x7 S5494x1 S2048x5494x7 where
  offsetDims := [0, 2]
  collapsedSliceDims := [1]
  operandBatchingDims := []
  startIndicesBatchingDims := []
  startIndexMap := [1]
  indexVectorDim := 1
  sliceSizes := ![2048, 1, 7]
  wf := gather_S2048x5494x7_S5494x1_S2048x5494x7_02_1_n_n_1_1_204817_wf

class Facts : Prop extends Facts₀ where

variable [Facts]
-- ==== Proof.Cells.lean ====
/-
  The gridding layer's mathematics, stated once over literal shapes.

  Each of the 5494 allocation cells `j` carries a region word `rid j`, a ratio, and a flat grid word
  `rows j · 67 + cols j` (32-bit arithmetic; a negative word is moved up by 5494, the convention for a negative
  position). A cell's contribution `x[b, rid j, v] · ratio j` is ADDED to grid row `word j` when that word, read as a
  signed integer, is a row of the grid (otherwise it is dropped), and output cell `c` READS the grid row its own word
  names, clamped into the grid. So
      out[b, c, v] = ∑ { j | word j = row read by c }  x[b, rid j · 7 + v] · ratio j.
  The kernel computes the same number as a contraction of `x[b, ·]` with a weight matrix whose entry at
  `(r · 7 + v', c · 7 + v)` is `coef c r · [v' = v]`, where `coef c r` is the sum of the ratios of the cells of region `r`
  that land on the row `c` reads.
-/
import Idealize.ShloMosaic.PureOps.Ideal
import Idealize.ShloMosaic.Lib.ValueIdx

noncomputable section

open Idealize.ShloMosaic Idealize.ShloMosaic.ValueIdx

namespace Cert.Gridding

abbrev SX : Shape := ⟨2, ![2048, 119]⟩
abbrev SN : Shape := ⟨1, ![5494]⟩
abbrev SW : Shape := ⟨2, ![119, 38458]⟩
abbrev SFlat : Shape := ⟨2, ![2048, 38458]⟩
abbrev SOut : Shape := ⟨4, ![2048, 5494, 1, 7]⟩

/-- The flat grid word of cell `j`: `rows j · 67 + cols j` in 32-bit arithmetic, a negative word moved up by the
    number of grid rows. -/
def cellWord (rows cols : IVec SN 32) (j : Fin 5494) : BitVec 32 :=
  Scalar.select (IntOp.cmpi .slt (IntOp.addi (IntOp.muli (rows (ix1 j)) 67#32) (cols (ix1 j))) 0#32)
    (IntOp.addi (IntOp.addi (IntOp.muli (rows (ix1 j)) 67#32) (cols (ix1 j))) 5494#32)
    (IntOp.addi (IntOp.muli (rows (ix1 j)) 67#32) (cols (ix1 j)))

/-- The grid row a read at word `w` takes: the word as a signed integer, clamped into `[0, 5493]`. -/
def readRow (w : BitVec 32) : Fin 5494 := ⟨min w.toInt.toNat 5493, by omega⟩

/-- The cells whose contribution lands on the grid row that output cell `c` reads. -/
def landing (rows cols : IVec SN 32) (c : Fin 5494) : Finset (Fin 5494) :=
  Finset.univ.filter fun j => (cellWord rows cols j).toInt = ((readRow (cellWord rows cols c)).val : ℤ)

/-- The region a region word names when it lies in `[0, 17)` (clamped into that range otherwise). -/
def regionOf (w : BitVec 32) : Fin 17 := ⟨min w.toInt.toNat 16, by omega⟩

/-- `x` at batch row `b`, region `r`, variable `v`: column `r · 7 + v`. -/
def xAt (x : FVec Ideal SX .f32) (b : Fin 2048) (r : Fin 17) (v : Fin 7) : EReal :=
  x (ix2 b ⟨r.val * 7 + v.val, by omega⟩)

/-- THE RESULT: output cell `c` of batch row `b`, variable `v`. -/
def gridOut (x : FVec Ideal SX .f32) (ratio : FVec Ideal SN .f32) (rid rows cols : IVec SN 32)
    (b : Fin 2048) (c : Fin 5494) (v : Fin 7) : EReal :=
  ∑ j ∈ landing rows cols c, xAt x b (regionOf (rid (ix1 j))) v * ratio (ix1 j)

/-- The result as an array of the output's shape (the unit axis carries nothing). -/
def gridOutArr (x : FVec Ideal SX .f32) (ratio : FVec Ideal SN .f32) (rid rows cols : IVec SN 32) : SOut.Idx → EReal :=
  fun i => gridOut x ratio rid rows cols ⟨(i 0).val, (i 0).isLt⟩ ⟨(i 1).val, (i 1).isLt⟩ ⟨(i 3).val, (i 3).isLt⟩

/-- Whether cell word `w` names region `r`, as the number 1 or 0. -/
def oneHot (w : BitVec 32) (r : Fin 17) : EReal := if w = BitVec.ofNat 32 r.val then 1 else 0

/-- The kernel's coefficient: the ratios of the cells of region `r` that land on the row output cell `c` reads. -/
def coef (ratio : FVec Ideal SN .f32) (rid rows cols : IVec SN 32) (c : Fin 5494) (r : Fin 17) : EReal :=
  ∑ j ∈ landing rows cols c, ratio (ix1 j) * oneHot (rid (ix1 j)) r

/-- The identity on the seven variables, as the number 1 or 0. -/
def eye (v' v : Fin 7) : EReal := if v' = v then 1 else 0

/-- The kernel's weight matrix entry at row `k = r · 7 + v'`, column `n = c · 7 + v`. -/
def weight (ratio : FVec Ideal SN .f32) (rid rows cols : IVec SN 32) (k : Fin 119) (n : Fin 38458) : EReal :=
  coef ratio rid rows cols ⟨n.val / 7, by omega⟩ ⟨k.val / 7, by omega⟩ * eye ⟨k.val % 7, by omega⟩ ⟨n.val % 7, by omega⟩

/-- The kernel's contraction: batch row `b` of `x` against column `n` of the weight matrix. -/
def contraction (x : FVec Ideal SX .f32) (ratio : FVec Ideal SN .f32) (rid rows cols : IVec SN 32)
    (b : Fin 2048) (n : Fin 38458) : EReal :=
  ∑ k : Fin 119, x (ix2 b k) * weight ratio rid rows cols k n

end Cert.Gridding

end
-- ==== Proof.Finite.lean ====
/-
  What the precondition says of the inputs: every entry of `x` and of `ratio` is a real number, and every region word,
  read as a signed integer, lies in `[0, 17)`.

  The precondition is a conjunction of four "for all entries" statements, each a reduction by `and` of a mask of one-bit
  words to a single word. A conjunction of one-bit words is 1 exactly when both are; a reduction by `and` over every axis
  that is 1 met a 1 at every entry. At one entry the float masks say `max a (-a) < ⊤` (the word `0x7F800000` denotes `⊤`),
  which rules out `a = ⊥` and `a = ⊤` and leaves a real number; the integer masks say `0 ≤ w` and `w < 17` for the word
  read signed.
-/
import proofs.«404945_j40939628266083_3_alg».proof.Pre_finite_inputs
import proofs.«404945_j40939628266083_3_alg».proof.Proof.Gen.Pre_finite_inputs
import proofs.«404945_j40939628266083_3_alg».proof.Proof.Cells
import Idealize.ShloMosaic.Lib.ReduceAll
import Idealize.ShloMosaic.Lib.StableHlo.Predicate

noncomputable section

open Idealize.ShloMosaic Idealize.ShloMosaic.ValueIdx

namespace Cert.Gridding

/-- An extended real whose absolute value `max a (-a)` lies strictly below `⊤` is a real number: at `a = ⊥` the
    absolute value is `-⊥ = ⊤`, and at `a = ⊤` it is `⊤`. -/
private theorem real_of_abs_lt (a : EReal)
    (h : Ideal.cmp .olt (max a (-a)) (Ideal.ofBits .f32 0x7F800000#32) = 1#1) : ∃ r : ℝ, a = ((r : ℝ) : EReal) := by
  have htop : Ideal.ofBits .f32 0x7F800000#32 = ⊤ := by simp [Ideal.ofBits, Ideal.ieee]
  rw [htop] at h
  unfold Ideal.cmp at h
  rw [StableHlo.Predicate.ofBool_eq_one_iff] at h
  simp only [decide_eq_true_eq] at h
  induction a using EReal.rec with
  | bot => simp at h
  | coe r => exact ⟨r, rfl⟩
  | top => simp at h

theorem of_pre [Cert.Pre_finite_inputs.Facts] (x : FVec Ideal SX .f32) (ratio : FVec Ideal SN .f32) (rid rows cols : IVec SN 32)
    (h : Cert.Pre_finite_inputs.fn (F := Ideal) x ratio rid rows cols = fun _ => 1#1) :
    (∀ i, ∃ r : ℝ, x i = ((r : ℝ) : EReal)) ∧ (∀ i, ∃ r : ℝ, ratio i = ((r : ℝ) : EReal))
      ∧ ∀ j : Fin 5494, 0 ≤ (rid (ix1 j)).toInt ∧ (rid (ix1 j)).toInt < 17 := by
  -- the rank-0 shape has one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- the conjunction of the four one-bit words is 1: each of them is
  have e : ∀ (a b : IVec Cert.Pre_finite_inputs.S_ 1) i, andi a b i = IntOp.andi (a i) (b i) := fun _ _ _ => rfl
  rw [e, IntOp.andi_eq_one, e, IntOp.andi_eq_one, e, IntOp.andi_eq_one] at h0
  obtain ⟨⟨⟨hx, hr⟩, hge⟩, hlt⟩ := h0
  refine ⟨fun i => ?_, fun i => ?_, fun j => ⟨?_, ?_⟩⟩
  · -- |x i| < ⊤
    exact real_of_abs_lt (x i) (Host.reduce_andi_all _ _ _ _ _ hx i)
  · -- |ratio i| < ⊤
    exact real_of_abs_lt (ratio i) (Host.reduce_andi_all _ _ _ _ _ hr i)
  · -- 0 ≤ rid j, signed
    have hj : IntOp.cmpi .sge (rid (ix1 j)) 0#32 = 1#1 := Host.reduce_andi_all _ _ _ _ _ hge (ix1 j)
    rw [IntOp.cmpi_sge] at hj
    exact hj
  · -- rid j < 17, signed
    have hj : IntOp.cmpi .slt (rid (ix1 j)) 17#32 = 1#1 := Host.reduce_andi_all _ _ _ _ _ hlt (ix1 j)
    rw [IntOp.cmpi_slt] at hj
    exact hj

end Cert.Gridding

end
-- ==== Proof.Landing.lean ====
/-
  A take of rows and an accumulation into rows, read at an index.

  jnp's `table[idx]` along one axis is a gather whose start index is read as a signed integer and CLAMPED into the
  axis; `table.at[idx].add(upd)` is a scatter whose start index is read as a signed integer and NOT clamped: an update
  whose row lies outside the table is dropped. At the exact values the scatter's result at a row is the table's entry
  plus the sum of the updates whose index names that row. Two layouts occur: the indexed axis is the first of two
  (`[N, R]`), or the middle of three (`[B, K, V]`).
-/
import Idealize.ShloMosaic.PureOps.Ideal
import Idealize.ShloMosaic.PureOps.Contract
import Idealize.ShloMosaic.Lib.ValueIdx

noncomputable section

open Idealize.ShloMosaic Idealize.ShloMosaic.ValueIdx

namespace Cert.Gridding.Landing

/-! ## The indexed axis first of two -/

/-- `x[idx]` for `x : [N, R]`, `idx : [M, 1]`: result `[M, R]`. -/
abbrev rowGather (N M R : Nat) (wf : GatherDims.WF ⟨2, ![N, R]⟩ ⟨2, ![M, 1]⟩ ⟨2, ![M, R]⟩ [1] [0] [] [0] [] 1 ![1, R]) :
    GatherDims ⟨2, ![N, R]⟩ ⟨2, ![M, 1]⟩ ⟨2, ![M, R]⟩ where
  offsetDims := [1]
  collapsedSliceDims := [0]
  operandBatchingDims := []
  startIndicesBatchingDims := []
  startIndexMap := [0]
  indexVectorDim := 1
  sliceSizes := ![1, R]
  wf := wf

/-- The take read at `(c, r)`: row `idx[c, 0]`, signed and clamped into `[0, N − 1]`, column `r`. -/
theorem rowGather_apply {α : Type} {N M R w : Nat} (hN : 0 < N)
    (wf : GatherDims.WF ⟨2, ![N, R]⟩ ⟨2, ![M, 1]⟩ ⟨2, ![M, R]⟩ [1] [0] [] [0] [] 1 ![1, R])
    (x : (⟨2, ![N, R]⟩ : Shape).Idx → α) (idx : IVec ⟨2, ![M, 1]⟩ w) (c : Fin M) (r : Fin R) :
    Host.gather (rowGather N M R wf) x idx (ix2 c r)
      = x (ix2 ⟨min (idx (ix2 c 0)).toInt.toNat (N - 1), by omega⟩ r) := by
  unfold Host.gather
  congr 1
  funext a
  refine Fin.ext ?_
  match a with
  | ⟨0, _⟩ =>
    show (rowGather N M R wf).start (ix2 c r) idx 0 + (rowGather N M R wf).batchCoord (ix2 c r) 0
      + (rowGather N M R wf).offCoord (ix2 c r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M R wf).startIndexMap from List.mem_singleton.mpr rfl)]
    have hsi : (rowGather N M R wf).siIdx (ix2 c r) ⟨List.idxOf (0 : Fin 2) (rowGather N M R wf).startIndexMap,
        List.idxOf_lt_length_iff.2 (List.mem_singleton.mpr rfl)⟩ = ix2 c 0 := by
      funext b; refine Fin.ext ?_
      match b with
      | ⟨0, _⟩ => rfl
      | ⟨1, _⟩ => rfl
    rw [hsi]
    rfl
  | ⟨1, _⟩ =>
    show (rowGather N M R wf).start (ix2 c r) idx 1 + (rowGather N M R wf).batchCoord (ix2 c r) 1
      + (rowGather N M R wf).offCoord (ix2 c r) 1 = _
    rw [GatherDims.batchCoord_eq_zero _ _ _ List.not_mem_nil]
    unfold GatherDims.start
    rw [dif_neg (show (1 : Fin 2) ∉ (rowGather N M R wf).startIndexMap from (by decide : (1 : Fin 2) ∉ [0]))]
    simp only [Nat.add_zero, Nat.zero_add]
    unfold GatherDims.offCoord
    rw [dif_pos (show (1 : Fin 2) ∈ (rowGather N M R wf).sKept from (by decide : (1 : Fin 2) ∈ (List.finRange 2).filter (· ∉ ([0] ++ [] : List (Fin 2)))))]
    rfl

/-- `x.at[idx].add(upd)` for `x : [N, R]`, `idx : [M, 1]`, `upd : [M, R]`. -/
abbrev rowScatter (N M R : Nat) (wf : ScatterDims.WF ⟨2, ![N, R]⟩ ⟨2, ![M, 1]⟩ ⟨2, ![M, R]⟩ [1] [0] [0] 1) :
    ScatterDims ⟨2, ![N, R]⟩ ⟨2, ![M, 1]⟩ ⟨2, ![M, R]⟩ where
  updateWindowDims := [1]
  insertedWindowDims := [0]
  scatterDimsToOperandDims := [0]
  indexVectorDim := 1
  wf := wf

section RowScatter
variable {N M R w : Nat} (wf : ScatterDims.WF ⟨2, ![N, R]⟩ ⟨2, ![M, 1]⟩ ⟨2, ![M, R]⟩ [1] [0] [0] 1)

private theorem rowScatter_start0 (idx : IVec ⟨2, ![M, 1]⟩ w) (j : Fin M) (r' : Fin R) :
    (rowScatter N M R wf).start (ix2 j r') idx 0 = (idx (ix2 j 0)).toInt := by
  unfold ScatterDims.start
  rw [dif_pos (show (0 : Fin 2) ∈ (rowScatter N M R wf).scatterDimsToOperandDims from List.mem_singleton.mpr rfl)]
  have hsi : (rowScatter N M R wf).siIdx (ix2 j r') ⟨List.idxOf (0 : Fin 2) (rowScatter N M R wf).scatterDimsToOperandDims,
      List.idxOf_lt_length_iff.2 (List.mem_singleton.mpr rfl)⟩ = ix2 j 0 := by
    funext e; refine Fin.ext ?_
    match e with
    | ⟨0, _⟩ => rfl
    | ⟨1, _⟩ => rfl
  rw [hsi]

private theorem rowScatter_start1 (idx : IVec ⟨2, ![M, 1]⟩ w) (j : Fin M) (r' : Fin R) :
    (rowScatter N M R wf).start (ix2 j r') idx 1 = 0 := by
  unfold ScatterDims.start
  rw [dif_neg (show (1 : Fin 2) ∉ (rowScatter N M R wf).scatterDimsToOperandDims from (by decide : (1 : Fin 2) ∉ [0]))]

private theorem rowScatter_window0 (j : Fin M) (r' : Fin R) :
    (rowScatter N M R wf).window (ix2 j r') 0 = 0 := by
  unfold ScatterDims.window
  rw [dif_neg (show (0 : Fin 2) ∉ (rowScatter N M R wf).sKept from
    (by decide : (0 : Fin 2) ∉ (List.finRange 2).filter (· ∉ ([0] : List (Fin 2)))))]

private theorem rowScatter_window1 (j : Fin M) (r' : Fin R) :
    (rowScatter N M R wf).window (ix2 j r') 1 = r'.val := by
  unfold ScatterDims.window
  rw [dif_pos (show (1 : Fin 2) ∈ (rowScatter N M R wf).sKept from
    (by decide : (1 : Fin 2) ∈ (List.finRange 2).filter (· ∉ ([0] : List (Fin 2)))))]
  rfl

/-- An update `(j, r')` lands at `(i, r)` exactly when its index word, signed, is `i` and `r' = r`. -/
private theorem rowScatter_resultIdx_iff (idx : IVec ⟨2, ![M, 1]⟩ w) (j : Fin M) (r' : Fin R) (i : Fin N) (r : Fin R) :
    (rowScatter N M R wf).resultIdx? (ix2 j r') idx = some (ix2 i r)
      ↔ (idx (ix2 j 0)).toInt = (i.val : ℤ) ∧ r' = r := by
  have hs0 := rowScatter_start0 wf idx j r'
  have hs1 := rowScatter_start1 wf idx j r'
  have hw0 := rowScatter_window0 wf j r'
  have hw1 := rowScatter_window1 wf j r'
  have hi := i.isLt
  have hr := r.isLt
  have hr' := r'.isLt
  unfold ScatterDims.resultIdx?
  split
  · rename_i h
    rw [Option.some.injEq]
    constructor
    · intro hf
      have h0 : ((rowScatter N M R wf).start (ix2 j r') idx 0 + (rowScatter N M R wf).window (ix2 j r') 0).toNat = i.val :=
        congrArg (fun f => (f 0).val) hf
      have h1 : ((rowScatter N M R wf).start (ix2 j r') idx 1 + (rowScatter N M R wf).window (ix2 j r') 1).toNat = r.val :=
        congrArg (fun f => (f 1).val) hf
      have hp := (h 0).1
      rw [hs0, hw0] at h0 hp
      rw [hs1, hw1] at h1
      exact ⟨by omega, Fin.ext (by omega)⟩
    · rintro ⟨ht, rfl⟩
      funext a
      refine Fin.ext ?_
      match a with
      | ⟨0, _⟩ =>
        show ((rowScatter N M R wf).start (ix2 j r') idx 0 + (rowScatter N M R wf).window (ix2 j r') 0).toNat = i.val
        rw [hs0, hw0, ht]; omega
      | ⟨1, _⟩ =>
        show ((rowScatter N M R wf).start (ix2 j r') idx 1 + (rowScatter N M R wf).window (ix2 j r') 1).toNat = r'.val
        rw [hs1, hw1]; omega
  · rename_i h
    constructor
    · intro hf; exact absurd hf (by simp)
    · rintro ⟨ht, rfl⟩
      exfalso; apply h
      intro a
      match a with
      | ⟨0, _⟩ =>
        show 0 ≤ (rowScatter N M R wf).start (ix2 j r') idx 0 + ((rowScatter N M R wf).window (ix2 j r') 0 : ℤ)
          ∧ (rowScatter N M R wf).start (ix2 j r') idx 0 + ((rowScatter N M R wf).window (ix2 j r') 0 : ℤ) < (N : ℤ)
        rw [hs0, hw0, ht]; omega
      | ⟨1, _⟩ =>
        show 0 ≤ (rowScatter N M R wf).start (ix2 j r') idx 1 + ((rowScatter N M R wf).window (ix2 j r') 1 : ℤ)
          ∧ (rowScatter N M R wf).start (ix2 j r') idx 1 + ((rowScatter N M R wf).window (ix2 j r') 1 : ℤ) < (R : ℤ)
        rw [hs1, hw1]; omega

end RowScatter

/-- The accumulation read at `(i, r)`: the entry plus the updates `(j, r)` whose index word, signed, is `i`. -/
theorem rowScatterAdd_apply {φ : FTy} {N M R w : Nat}
    (wf : ScatterDims.WF ⟨2, ![N, R]⟩ ⟨2, ![M, 1]⟩ ⟨2, ![M, R]⟩ [1] [0] [0] 1)
    (x : FVec Ideal ⟨2, ![N, R]⟩ φ) (idx : IVec ⟨2, ![M, 1]⟩ w) (upd : FVec Ideal ⟨2, ![M, R]⟩ φ) (i : Fin N) (r : Fin R) :
    Host.scatterAdd (F := Ideal) (rowScatter N M R wf) x idx upd (ix2 i r)
      = x (ix2 i r) + ∑ j ∈ Finset.univ.filter (fun j : Fin M => (idx (ix2 j 0)).toInt = (i.val : ℤ)), upd (ix2 j r) := by
  show Ideal.hostScatterAdd (rowScatter N M R wf) x idx upd (ix2 i r) = _
  unfold Ideal.hostScatterAdd
  congr 1
  symm
  refine Finset.sum_nbij' (fun j : Fin M => (ix2 j r : (⟨2, ![M, R]⟩ : Shape).Idx))
    (fun u : (⟨2, ![M, R]⟩ : Shape).Idx => (⟨(u 0).val, (u 0).isLt⟩ : Fin M)) ?_ ?_ ?_ ?_ ?_
  · intro j hj
    rw [Finset.mem_filter] at hj ⊢
    exact ⟨Finset.mem_univ _, (rowScatter_resultIdx_iff wf idx j r i r).mpr ⟨hj.2, rfl⟩⟩
  · intro u hu
    obtain ⟨a, b, rfl⟩ : ∃ (a : Fin M) (b : Fin R), u = ix2 a b := ⟨u 0, u 1, eq_ix2 u⟩
    rw [Finset.mem_filter] at hu ⊢
    exact ⟨Finset.mem_univ _, ((rowScatter_resultIdx_iff wf idx a b i r).mp hu.2).1⟩
  · intro j _
    rfl
  · intro u hu
    obtain ⟨a, b, rfl⟩ : ∃ (a : Fin M) (b : Fin R), u = ix2 a b := ⟨u 0, u 1, eq_ix2 u⟩
    rw [Finset.mem_filter] at hu
    obtain rfl := ((rowScatter_resultIdx_iff wf idx a b i r).mp hu.2).2
    rfl
  · intro j _
    rfl

/-! ## The indexed axis the middle of three -/

/-- `x[:, idx, :]` for `x : [B, K, V]`, `idx : [M, 1]`: result `[B, M, V]`. -/
abbrev midGather (B K M V : Nat)
    (wf : GatherDims.WF ⟨3, ![B, K, V]⟩ ⟨2, ![M, 1]⟩ ⟨3, ![B, M, V]⟩ [0, 2] [1] [] [1] [] 1 ![B, 1, V]) :
    GatherDims ⟨3, ![B, K, V]⟩ ⟨2, ![M, 1]⟩ ⟨3, ![B, M, V]⟩ where
  offsetDims := [0, 2]
  collapsedSliceDims := [1]
  operandBatchingDims := []
  startIndicesBatchingDims := []
  startIndexMap := [1]
  indexVectorDim := 1
  sliceSizes := ![B, 1, V]
  wf := wf

/-- The take read at `(b, c, v)`: middle coordinate `idx[c, 0]`, signed and clamped into `[0, K − 1]`. -/
theorem midGather_apply {α : Type} {B K M V w : Nat} (hK : 0 < K)
    (wf : GatherDims.WF ⟨3, ![B, K, V]⟩ ⟨2, ![M, 1]⟩ ⟨3, ![B, M, V]⟩ [0, 2] [1] [] [1] [] 1 ![B, 1, V])
    (x : (⟨3, ![B, K, V]⟩ : Shape).Idx → α) (idx : IVec ⟨2, ![M, 1]⟩ w) (b : Fin B) (c : Fin M) (v : Fin V) :
    Host.gather (midGather B K M V wf) x idx (ix3 b c v)
      = x (ix3 b ⟨min (idx (ix2 c 0)).toInt.toNat (K - 1), by omega⟩ v) := by
  unfold Host.gather
  congr 1
  funext a
  refine Fin.ext ?_
  match a with
  | ⟨0, _⟩ =>
    show (midGather B K M V wf).start (ix3 b c v) idx 0 + (midGather B K M V wf).batchCoord (ix3 b c v) 0
      + (midGather B K M V wf).offCoord (ix3 b c v) 0 = _
    rw [GatherDims.batchCoord_eq_zero _ _ _ List.not_mem_nil]
    unfold GatherDims.start
    rw [dif_neg (show (0 : Fin 3) ∉ (midGather B K M V wf).startIndexMap from (by decide : (0 : Fin 3) ∉ [1]))]
    simp only [Nat.add_zero, Nat.zero_add]
    unfold GatherDims.offCoord
    rw [dif_pos (show (0 : Fin 3) ∈ (midGather B K M V wf).sKept from
      (by decide : (0 : Fin 3) ∈ (List.finRange 3).filter (· ∉ ([1] ++ [] : List (Fin 3)))))]
    rfl
  | ⟨1, _⟩ =>
    show (midGather B K M V wf).start (ix3 b c v) idx 1 + (midGather B K M V wf).batchCoord (ix3 b c v) 1
      + (midGather B K M V wf).offCoord (ix3 b c v) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGather B K M V wf).startIndexMap from List.mem_singleton.mpr rfl)]
    have hsi : (midGather B K M V wf).siIdx (ix3 b c v) ⟨List.idxOf (1 : Fin 3) (midGather B K M V wf).startIndexMap,
        List.idxOf_lt_length_iff.2 (List.mem_singleton.mpr rfl)⟩ = ix2 c 0 := by
      funext e; refine Fin.ext ?_
      match e with
      | ⟨0, _⟩ => rfl
      | ⟨1, _⟩ => rfl
    rw [hsi]
    rfl
  | ⟨2, _⟩ =>
    show (midGather B K M V wf).start (ix3 b c v) idx 2 + (midGather B K M V wf).batchCoord (ix3 b c v) 2
      + (midGather B K M V wf).offCoord (ix3 b c v) 2 = _
    rw [GatherDims.batchCoord_eq_zero _ _ _ List.not_mem_nil]
    unfold GatherDims.start
    rw [dif_neg (show (2 : Fin 3) ∉ (midGather B K M V wf).startIndexMap from (by decide : (2 : Fin 3) ∉ [1]))]
    simp only [Nat.add_zero, Nat.zero_add]
    unfold GatherDims.offCoord
    rw [dif_pos (show (2 : Fin 3) ∈ (midGather B K M V wf).sKept from
      (by decide : (2 : Fin 3) ∈ (List.finRange 3).filter (· ∉ ([1] ++ [] : List (Fin 3)))))]
    rfl

/-- `x.at[:, idx, :].add(upd)` for `x : [B, K, V]`, `idx : [M, 1]`, `upd : [B, M, V]`. -/
abbrev midScatter (B K M V : Nat)
    (wf : ScatterDims.WF ⟨3, ![B, K, V]⟩ ⟨2, ![M, 1]⟩ ⟨3, ![B, M, V]⟩ [0, 2] [1] [1] 1) :
    ScatterDims ⟨3, ![B, K, V]⟩ ⟨2, ![M, 1]⟩ ⟨3, ![B, M, V]⟩ where
  updateWindowDims := [0, 2]
  insertedWindowDims := [1]
  scatterDimsToOperandDims := [1]
  indexVectorDim := 1
  wf := wf

section MidScatter
variable {B K M V w : Nat} (wf : ScatterDims.WF ⟨3, ![B, K, V]⟩ ⟨2, ![M, 1]⟩ ⟨3, ![B, M, V]⟩ [0, 2] [1] [1] 1)

private theorem midScatter_start0 (idx : IVec ⟨2, ![M, 1]⟩ w) (b' : Fin B) (j : Fin M) (v' : Fin V) :
    (midScatter B K M V wf).start (ix3 b' j v') idx 0 = 0 := by
  unfold ScatterDims.start
  rw [dif_neg (show (0 : Fin 3) ∉ (midScatter B K M V wf).scatterDimsToOperandDims from (by decide : (0 : Fin 3) ∉ [1]))]

private theorem midScatter_start1 (idx : IVec ⟨2, ![M, 1]⟩ w) (b' : Fin B) (j : Fin M) (v' : Fin V) :
    (midScatter B K M V wf).start (ix3 b' j v') idx 1 = (idx (ix2 j 0)).toInt := by
  unfold ScatterDims.start
  rw [dif_pos (show (1 : Fin 3) ∈ (midScatter B K M V wf).scatterDimsToOperandDims from List.mem_singleton.mpr rfl)]
  have hsi : (midScatter B K M V wf).siIdx (ix3 b' j v') ⟨List.idxOf (1 : Fin 3) (midScatter B K M V wf).scatterDimsToOperandDims,
      List.idxOf_lt_length_iff.2 (List.mem_singleton.mpr rfl)⟩ = ix2 j 0 := by
    funext e; refine Fin.ext ?_
    match e with
    | ⟨0, _⟩ => rfl
    | ⟨1, _⟩ => rfl
  rw [hsi]

private theorem midScatter_start2 (idx : IVec ⟨2, ![M, 1]⟩ w) (b' : Fin B) (j : Fin M) (v' : Fin V) :
    (midScatter B K M V wf).start (ix3 b' j v') idx 2 = 0 := by
  unfold ScatterDims.start
  rw [dif_neg (show (2 : Fin 3) ∉ (midScatter B K M V wf).scatterDimsToOperandDims from (by decide : (2 : Fin 3) ∉ [1]))]

private theorem midScatter_window0 (b' : Fin B) (j : Fin M) (v' : Fin V) :
    (midScatter B K M V wf).window (ix3 b' j v') 0 = b'.val := by
  unfold ScatterDims.window
  rw [dif_pos (show (0 : Fin 3) ∈ (midScatter B K M V wf).sKept from
    (by decide : (0 : Fin 3) ∈ (List.finRange 3).filter (· ∉ ([1] : List (Fin 3)))))]
  rfl

private theorem midScatter_window1 (b' : Fin B) (j : Fin M) (v' : Fin V) :
    (midScatter B K M V wf).window (ix3 b' j v') 1 = 0 := by
  unfold ScatterDims.window
  rw [dif_neg (show (1 : Fin 3) ∉ (midScatter B K M V wf).sKept from
    (by decide : (1 : Fin 3) ∉ (List.finRange 3).filter (· ∉ ([1] : List (Fin 3)))))]

private theorem midScatter_window2 (b' : Fin B) (j : Fin M) (v' : Fin V) :
    (midScatter B K M V wf).window (ix3 b' j v') 2 = v'.val := by
  unfold ScatterDims.window
  rw [dif_pos (show (2 : Fin 3) ∈ (midScatter B K M V wf).sKept from
    (by decide : (2 : Fin 3) ∈ (List.finRange 3).filter (· ∉ ([1] : List (Fin 3)))))]
  rfl

/-- An update `(b', j, v')` lands at `(b, i, v)` exactly when its index word, signed, is `i`, `b' = b` and `v' = v`. -/
private theorem midScatter_resultIdx_iff (idx : IVec ⟨2, ![M, 1]⟩ w) (b' : Fin B) (j : Fin M) (v' : Fin V)
    (b : Fin B) (i : Fin K) (v : Fin V) :
    (midScatter B K M V wf).resultIdx? (ix3 b' j v') idx = some (ix3 b i v)
      ↔ (idx (ix2 j 0)).toInt = (i.val : ℤ) ∧ b' = b ∧ v' = v := by
  have hs0 := midScatter_start0 wf idx b' j v'
  have hs1 := midScatter_start1 wf idx b' j v'
  have hs2 := midScatter_start2 wf idx b' j v'
  have hw0 := midScatter_window0 wf b' j v'
  have hw1 := midScatter_window1 wf b' j v'
  have hw2 := midScatter_window2 wf b' j v'
  have hi := i.isLt
  have hb' := b'.isLt
  have hv' := v'.isLt
  unfold ScatterDims.resultIdx?
  split
  · rename_i h
    rw [Option.some.injEq]
    constructor
    · intro hf
      have h0 : ((midScatter B K M V wf).start (ix3 b' j v') idx 0 + (midScatter B K M V wf).window (ix3 b' j v') 0).toNat = b.val :=
        congrArg (fun f => (f 0).val) hf
      have h1 : ((midScatter B K M V wf).start (ix3 b' j v') idx 1 + (midScatter B K M V wf).window (ix3 b' j v') 1).toNat = i.val :=
        congrArg (fun f => (f 1).val) hf
      have h2 : ((midScatter B K M V wf).start (ix3 b' j v') idx 2 + (midScatter B K M V wf).window (ix3 b' j v') 2).toNat = v.val :=
        congrArg (fun f => (f 2).val) hf
      have hp := (h 1).1
      rw [hs0, hw0] at h0
      rw [hs1, hw1] at h1 hp
      rw [hs2, hw2] at h2
      exact ⟨by omega, Fin.ext (by omega), Fin.ext (by omega)⟩
    · rintro ⟨ht, rfl, rfl⟩
      funext a
      refine Fin.ext ?_
      match a with
      | ⟨0, _⟩ =>
        show ((midScatter B K M V wf).start (ix3 b' j v') idx 0 + (midScatter B K M V wf).window (ix3 b' j v') 0).toNat = b'.val
        rw [hs0, hw0]; omega
      | ⟨1, _⟩ =>
        show ((midScatter B K M V wf).start (ix3 b' j v') idx 1 + (midScatter B K M V wf).window (ix3 b' j v') 1).toNat = i.val
        rw [hs1, hw1, ht]; omega
      | ⟨2, _⟩ =>
        show ((midScatter B K M V wf).start (ix3 b' j v') idx 2 + (midScatter B K M V wf).window (ix3 b' j v') 2).toNat = v'.val
        rw [hs2, hw2]; omega
  · rename_i h
    constructor
    · intro hf; exact absurd hf (by simp)
    · rintro ⟨ht, rfl, rfl⟩
      exfalso; apply h
      intro a
      match a with
      | ⟨0, _⟩ =>
        show 0 ≤ (midScatter B K M V wf).start (ix3 b' j v') idx 0 + ((midScatter B K M V wf).window (ix3 b' j v') 0 : ℤ)
          ∧ (midScatter B K M V wf).start (ix3 b' j v') idx 0 + ((midScatter B K M V wf).window (ix3 b' j v') 0 : ℤ) < (B : ℤ)
        rw [hs0, hw0]; omega
      | ⟨1, _⟩ =>
        show 0 ≤ (midScatter B K M V wf).start (ix3 b' j v') idx 1 + ((midScatter B K M V wf).window (ix3 b' j v') 1 : ℤ)
          ∧ (midScatter B K M V wf).start (ix3 b' j v') idx 1 + ((midScatter B K M V wf).window (ix3 b' j v') 1 : ℤ) < (K : ℤ)
        rw [hs1, hw1, ht]; omega
      | ⟨2, _⟩ =>
        show 0 ≤ (midScatter B K M V wf).start (ix3 b' j v') idx 2 + ((midScatter B K M V wf).window (ix3 b' j v') 2 : ℤ)
          ∧ (midScatter B K M V wf).start (ix3 b' j v') idx 2 + ((midScatter B K M V wf).window (ix3 b' j v') 2 : ℤ) < (V : ℤ)
        rw [hs2, hw2]; omega

end MidScatter

/-- The accumulation read at `(b, i, v)`: the entry plus the updates `(b, j, v)` whose index word, signed, is `i`. -/
theorem midScatterAdd_apply {φ : FTy} {B K M V w : Nat}
    (wf : ScatterDims.WF ⟨3, ![B, K, V]⟩ ⟨2, ![M, 1]⟩ ⟨3, ![B, M, V]⟩ [0, 2] [1] [1] 1)
    (x : FVec Ideal ⟨3, ![B, K, V]⟩ φ) (idx : IVec ⟨2, ![M, 1]⟩ w) (upd : FVec Ideal ⟨3, ![B, M, V]⟩ φ)
    (b : Fin B) (i : Fin K) (v : Fin V) :
    Host.scatterAdd (F := Ideal) (midScatter B K M V wf) x idx upd (ix3 b i v)
      = x (ix3 b i v) + ∑ j ∈ Finset.univ.filter (fun j : Fin M => (idx (ix2 j 0)).toInt = (i.val : ℤ)), upd (ix3 b j v) := by
  show Ideal.hostScatterAdd (midScatter B K M V wf) x idx upd (ix3 b i v) = _
  unfold Ideal.hostScatterAdd
  congr 1
  symm
  refine Finset.sum_nbij' (fun j : Fin M => (ix3 b j v : (⟨3, ![B, M, V]⟩ : Shape).Idx))
    (fun u : (⟨3, ![B, M, V]⟩ : Shape).Idx => (⟨(u 1).val, (u 1).isLt⟩ : Fin M)) ?_ ?_ ?_ ?_ ?_
  · intro j hj
    rw [Finset.mem_filter] at hj ⊢
    exact ⟨Finset.mem_univ _, (midScatter_resultIdx_iff wf idx b j v b i v).mpr ⟨hj.2, rfl, rfl⟩⟩
  · intro u hu
    obtain ⟨a, c, e, rfl⟩ : ∃ (a : Fin B) (c : Fin M) (e : Fin V), u = ix3 a c e := ⟨u 0, u 1, u 2, eq_ix3 u⟩
    rw [Finset.mem_filter] at hu ⊢
    exact ⟨Finset.mem_univ _, ((midScatter_resultIdx_iff wf idx a c e b i v).mp hu.2).1⟩
  · intro j _
    rfl
  · intro u hu
    obtain ⟨a, c, e, rfl⟩ : ∃ (a : Fin B) (c : Fin M) (e : Fin V), u = ix3 a c e := ⟨u 0, u 1, u 2, eq_ix3 u⟩
    rw [Finset.mem_filter] at hu
    obtain ⟨-, rfl, rfl⟩ := (midScatter_resultIdx_iff wf idx a c e b i v).mp hu.2
    rfl
  · intro j _
    rfl

end Cert.Gridding.Landing

end
-- ==== Proof.RefValue.lean ====
/-
  The reference, read at an index, is the gridded sum.

  The reference gathers region `rid j`'s seven inputs for every cell (a negative word moved up by 17, then clamped into
  `[0, 16]`: for a word already in `[0, 17)` that is the word itself), scales them by the cell's ratio, adds every cell's
  row into the grid row its flat word names (dropped when the word is no row), and reads for every cell the grid row its own
  word names (clamped). The unit axis of the result carries nothing.
-/
import proofs.«404945_j40939628266083_3_alg».proof.Proof.Gen.ReferenceIdeal.Read
import proofs.«404945_j40939628266083_3_alg».proof.Proof.Cells
import proofs.«404945_j40939628266083_3_alg».proof.Proof.Landing
import Idealize.ShloMosaic.PureOps.Ideal.Laws

noncomputable section

open Idealize.ShloMosaic Idealize.ShloMosaic.ValueIdx

namespace Cert.Gridding

open Cert.ReferenceIdeal Cert.ReferenceIdeal.Read

/-- A word that is not negative as a signed integer is not below zero in the signed order. -/
private theorem cmpi_slt_zero_of_nonneg (w : BitVec 32) (h : 0 ≤ w.toInt) : IntOp.cmpi .slt w 0#32 = 0#1 := by
  unfold IntOp.cmpi
  have : w.slt 0#32 = false := by
    rw [BitVec.slt_eq_decide]
    simp only [BitVec.toInt_zero, decide_eq_false_iff_not, not_lt]
    exact h
  simp only [this]
  rfl

/-- The region word a cell is read at is its own word when that word is not negative. -/
private theorem v6_at (rid : IVec SN 32) (j : Fin 5494) (h : 0 ≤ (rid (ix1 j)).toInt) :
    val_main_v6 (F := Ideal) rid (ix2 j 0) = rid (ix1 j) := by
  rw [val_main_v6_apply]
  have hi : idx_main_v6 (ix2 j (0 : Fin 1)) = ix1 j := by
    funext a; match a with | ⟨0, _⟩ => rfl
  rw [hi, val_main_v5_apply, val_main_v2_apply, val_main_v1_apply]
  show Scalar.select (IntOp.cmpi .slt (rid (ix1 j)) 0#32) _ _ = _
  rw [cmpi_slt_zero_of_nonneg _ h, select_zero]

/-- The ratio spread over batch rows and variables reads the cell's ratio. -/
private theorem v9_at (ratio : FVec Ideal SN .f32) (b : Fin 2048) (j : Fin 5494) (v : Fin 7) :
    val_main_v9 (F := Ideal) ratio (ix3 b j v) = ratio (ix1 j) := by
  rw [val_main_v9_apply, val_main_v8_apply]
  congr 1
  funext a; match a with | ⟨0, _⟩ => rfl

/-- The input folded to regions by variables reads the region's column. -/
private theorem v0_at (x : FVec Ideal SX .f32) (b : Fin 2048) (r : Fin 17) (v : Fin 7) :
    val_main_v0 (F := Ideal) x (ix3 b r v) = xAt x b r v := by
  rw [val_main_v0_apply]
  unfold xAt
  congr 1
  funext a
  match a with
  | ⟨0, _⟩ =>
    refine Fin.ext ?_
    show ((b.val * 17 + r.val) * 7 + v.val) / 119 = b.val
    have := b.isLt; have := r.isLt; have := v.isLt; omega
  | ⟨1, _⟩ =>
    refine Fin.ext ?_
    show ((b.val * 17 + r.val) * 7 + v.val) % 119 = r.val * 7 + v.val
    have := b.isLt; have := r.isLt; have := v.isLt; omega

/-- The grid starts at zero. -/
private theorem v14_at (i : S2048x5494x7.Idx) : val_main_v14 (F := Ideal) i = 0 := by
  rw [val_main_v14_apply, val_main_cst_apply]
  exact Ideal.ofBits_zero_f32

/-- The flat word a cell is added at is its cell word. -/
private theorem v20_at (rows cols : IVec SN 32) (j : Fin 5494) :
    val_main_v20 (F := Ideal) rows cols (ix2 j 0) = cellWord rows cols j := by
  rw [val_main_v20_apply]
  have hi : idx_main_v20 (ix2 j (0 : Fin 1)) = ix1 j := by
    funext a; match a with | ⟨0, _⟩ => rfl
  rw [hi, val_main_v19_apply, val_main_v16_apply, val_main_v18_apply, val_main_v13_apply, val_main_v12_apply,
    val_main_v11_apply, val_main_v15_apply, val_main_v17_apply]
  rfl

/-- The flat word a cell reads at is its cell word. -/
private theorem v27_at (rows cols : IVec SN 32) (j : Fin 5494) :
    val_main_v27 (F := Ideal) rows cols (ix2 j 0) = cellWord rows cols j := by
  rw [val_main_v27_apply]
  have hi : idx_main_v27 (ix2 j (0 : Fin 1)) = ix1 j := by
    funext a; match a with | ⟨0, _⟩ => rfl
  rw [hi, val_main_v26_apply, val_main_v23_apply, val_main_v25_apply, val_main_v13_apply, val_main_v12_apply,
    val_main_v11_apply, val_main_v22_apply, val_main_v24_apply]
  rfl

/-- A cell's gathered input is its region's input, the region word being in range. -/
private theorem v7_at (x : FVec Ideal SX .f32) (rid : IVec SN 32) (b : Fin 2048) (j : Fin 5494) (v : Fin 7)
    (h : 0 ≤ (rid (ix1 j)).toInt) :
    val_main_v7 (F := Ideal) x rid (ix3 b j v) = xAt x b (regionOf (rid (ix1 j))) v := by
  unfold val_main_v7
  refine (Landing.midGather_apply (B := 2048) (K := 17) (M := 5494) (V := 7) (by decide)
    Cert.ReferenceIdeal.Facts₀.gather_S2048x17x7_S5494x1_S2048x5494x7_02_1_n_n_1_1_204817_wf
    (val_main_v0 (F := Ideal) x) (val_main_v6 (F := Ideal) rid) b j v).trans ?_
  rw [v0_at]
  unfold regionOf
  congr 1
  refine Fin.ext ?_
  show min (val_main_v6 (F := Ideal) rid (ix2 j 0)).toInt.toNat (17 - 1) = min (rid (ix1 j)).toInt.toNat 16
  rw [v6_at rid j h]

/-- A cell's contribution: its region's input times its ratio. -/
private theorem v10_at (x : FVec Ideal SX .f32) (ratio : FVec Ideal SN .f32) (rid : IVec SN 32)
    (b : Fin 2048) (j : Fin 5494) (v : Fin 7) (h : 0 ≤ (rid (ix1 j)).toInt) :
    val_main_v10 (F := Ideal) x ratio rid (ix3 b j v) = xAt x b (regionOf (rid (ix1 j))) v * ratio (ix1 j) := by
  rw [val_main_v10_apply, v7_at x rid b j v h, v9_at]
  rfl

/-- The grid at row `i`: the contributions of the cells whose word is `i`. -/
private theorem v21_at (x : FVec Ideal SX .f32) (ratio : FVec Ideal SN .f32) (rid rows cols : IVec SN 32)
    (hrid : ∀ j : Fin 5494, 0 ≤ (rid (ix1 j)).toInt ∧ (rid (ix1 j)).toInt < 17)
    (b : Fin 2048) (i : Fin 5494) (v : Fin 7) :
    val_main_v21 (F := Ideal) x ratio rid rows cols (ix3 b i v)
      = ∑ j ∈ Finset.univ.filter (fun j : Fin 5494 => (cellWord rows cols j).toInt = (i.val : ℤ)),
          xAt x b (regionOf (rid (ix1 j))) v * ratio (ix1 j) := by
  unfold val_main_v21
  refine (Landing.midScatterAdd_apply (B := 2048) (K := 5494) (M := 5494) (V := 7)
    Cert.ReferenceIdeal.Facts₀.scatter_S2048x5494x7_S5494x1_S2048x5494x7_02_1_1_1_wf
    (val_main_v14 (F := Ideal)) (val_main_v20 (F := Ideal) rows cols) (val_main_v10 (F := Ideal) x ratio rid) b i v).trans ?_
  rw [v14_at, zero_add]
  refine Finset.sum_congr ?_ ?_
  · refine Finset.filter_congr ?_
    intro j _
    rw [v20_at]
  · intro j _
    exact v10_at x ratio rid b j v (hrid j).1

/-- The output at cell `c`: the grid at the row `c`'s word names. -/
private theorem v28_at (x : FVec Ideal SX .f32) (ratio : FVec Ideal SN .f32) (rid rows cols : IVec SN 32)
    (b : Fin 2048) (c : Fin 5494) (v : Fin 7) :
    val_main_v28 (F := Ideal) x ratio rid rows cols (ix3 b c v)
      = val_main_v21 (F := Ideal) x ratio rid rows cols (ix3 b (readRow (cellWord rows cols c)) v) := by
  unfold val_main_v28
  refine (Landing.midGather_apply (B := 2048) (K := 5494) (M := 5494) (V := 7) (by decide)
    Cert.ReferenceIdeal.Facts₀.gather_S2048x5494x7_S5494x1_S2048x5494x7_02_1_n_n_1_1_204817_wf
    (val_main_v21 (F := Ideal) x ratio rid rows cols) (val_main_v27 (F := Ideal) rows cols) b c v).trans ?_
  unfold readRow
  congr 2
  refine Fin.ext ?_
  show min (val_main_v27 (F := Ideal) rows cols (ix2 c 0)).toInt.toNat (5494 - 1) = min (cellWord rows cols c).toInt.toNat 5493
  rw [v27_at]

theorem ref_eq_gridOutArr (x : FVec Ideal SX .f32) (ratio : FVec Ideal SN .f32) (rid rows cols : IVec SN 32)
    (hrid : ∀ j : Fin 5494, 0 ≤ (rid (ix1 j)).toInt ∧ (rid (ix1 j)).toInt < 17) :
    Cert.ReferenceIdeal.Read.val_main_v29 (F := Ideal) x ratio rid rows cols = gridOutArr x ratio rid rows cols := by
  funext i
  obtain ⟨b, c, z, v, rfl⟩ : ∃ (b : Fin 2048) (c : Fin 5494) (z : Fin 1) (v : Fin 7), i = ix4 b c z v :=
    ⟨_, _, _, _, eq_ix4 i⟩
  obtain rfl : z = 0 := Subsingleton.elim _ _
  rw [val_main_v29_apply]
  have hi : idx_main_v29 (ix4 b c (0 : Fin 1) v) = ix3 b c v := by
    funext a
    match a with
    | ⟨0, _⟩ =>
      refine Fin.ext ?_
      show (((b.val * 5494 + c.val) * 1 + 0) * 7 + v.val) / 38458 = b.val
      have := b.isLt; have := c.isLt; have := v.isLt; omega
    | ⟨1, _⟩ =>
      refine Fin.ext ?_
      show (((b.val * 5494 + c.val) * 1 + 0) * 7 + v.val) / 7 % 5494 = c.val
      have := b.isLt; have := c.isLt; have := v.isLt; omega
    | ⟨2, _⟩ =>
      refine Fin.ext ?_
      show (((b.val * 5494 + c.val) * 1 + 0) * 7 + v.val) % 7 = v.val
      have := b.isLt; have := c.isLt; have := v.isLt; omega
  rw [hi, v28_at, v21_at x ratio rid rows cols hrid]
  rfl

end Cert.Gridding

end
-- ==== Proof.Algebra.lean ====
/-
  The contraction against the weight matrix IS the gridded sum.

  For finite inputs and region words in `[0, 17)`:
      ∑ₖ x[b, k] · (coef c (k / 7) · [k % 7 = v])
        = ∑ᵣ x[b, r · 7 + v] · ∑ { j lands on c's row } ratio j · [rid j = r]
        = ∑ { j lands on c's row } x[b, rid j · 7 + v] · ratio j.
  The first step drops the terms the identity on the variables kills; the second distributes `x` over the finite sum of
  reals and keeps, for each cell, the one region its word names. Distributing needs every entry to be a real number.
-/
import proofs.«404945_j40939628266083_3_alg».proof.Proof.Cells
import Mathlib.Data.EReal.Basic
import Mathlib.Algebra.BigOperators.Fin

noncomputable section

open Idealize.ShloMosaic Idealize.ShloMosaic.ValueIdx

namespace Cert.Gridding

/-- The inclusion of the reals in the extended reals commutes with finite sums. -/
private theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A 32-bit word whose signed value lies in `[0, 17)` is the word of `r` exactly when the region it names is `r`. -/
private theorem word_eq_iff (w : BitVec 32) (h0 : 0 ≤ w.toInt) (h1 : w.toInt < 17) (r : Fin 17) :
    w = BitVec.ofNat 32 r.val ↔ regionOf w = r := by
  have hr := r.isLt
  have hlt := w.isLt
  have hti : w.toInt = (w.toNat : ℤ) := by
    rw [BitVec.toInt_eq_toNat_cond] at h0 ⊢
    split_ifs at h0 ⊢ with hc
    · rfl
    · exfalso; omega
  have hn : w.toInt.toNat = w.toNat := by omega
  have h17 : w.toNat < 17 := by omega
  constructor
  · intro h
    apply Fin.ext
    show min w.toInt.toNat 16 = r.val
    have : w.toNat = r.val := by rw [h, BitVec.toNat_ofNat]; omega
    omega
  · intro h
    apply BitVec.eq_of_toNat_eq
    rw [BitVec.toNat_ofNat]
    have : min w.toInt.toNat 16 = r.val := congrArg Fin.val h
    omega

/-- The identity over the reals: exchanging the two finite sums, each landing cell keeps the single column
    `k = R j · 7 + v`, the one whose quotient by 7 is the cell's region and whose remainder is `v`. -/
private theorem real_collapse (L : Finset (Fin 5494)) (X : Fin 119 → ℝ) (A : Fin 5494 → ℝ) (W : Fin 5494 → BitVec 32)
    (R : Fin 5494 → Fin 17) (hW : ∀ j (r : Fin 17), W j = BitVec.ofNat 32 r.val ↔ R j = r) (v : Fin 7) :
    ∑ k : Fin 119, X k * ((∑ j ∈ L, A j * (if W j = BitVec.ofNat 32 (k.val / 7) then (1 : ℝ) else 0))
        * (if (⟨k.val % 7, by omega⟩ : Fin 7) = v then (1 : ℝ) else 0))
      = ∑ j ∈ L, X ⟨(R j).val * 7 + v.val, by omega⟩ * A j := by
  simp only [Finset.sum_mul, Finset.mul_sum]
  rw [Finset.sum_comm]
  refine Finset.sum_congr rfl fun j _ => ?_
  have hv := v.isLt
  have hR := (R j).isLt
  rw [Finset.sum_eq_single (⟨(R j).val * 7 + v.val, by omega⟩ : Fin 119)]
  · have a1 : W j = BitVec.ofNat 32 (((R j).val * 7 + v.val) / 7) :=
      (hW j ⟨((R j).val * 7 + v.val) / 7, by omega⟩).mpr
        (Fin.ext (show (R j).val = ((R j).val * 7 + v.val) / 7 by omega))
    have a2 : (⟨((R j).val * 7 + v.val) % 7, by omega⟩ : Fin 7) = v :=
      Fin.ext (show ((R j).val * 7 + v.val) % 7 = v.val by omega)
    dsimp only
    rw [if_pos a1, if_pos a2]; ring
  · intro k _ hk
    have hk119 := k.isLt
    by_cases h1 : W j = BitVec.ofNat 32 (k.val / 7)
    · by_cases h2 : (⟨k.val % 7, by omega⟩ : Fin 7) = v
      · exfalso; apply hk; apply Fin.ext
        have e1 : (R j).val = k.val / 7 := congrArg Fin.val ((hW j ⟨k.val / 7, by omega⟩).mp h1)
        have e2 : k.val % 7 = v.val := congrArg Fin.val h2
        show k.val = (R j).val * 7 + v.val
        omega
      · rw [if_neg h2]; ring
    · rw [if_neg h1]; ring
  · intro h; exact absurd (Finset.mem_univ _) h

/-- The statement for any column `n` whose quotient by 7 is `c` and whose remainder is `v`. -/
private theorem contraction_eq_aux (x : FVec Ideal SX .f32) (ratio : FVec Ideal SN .f32) (rid rows cols : IVec SN 32)
    (xr : SX.Idx → ℝ) (hxr : ∀ i, x i = ((xr i : ℝ) : EReal))
    (ar : SN.Idx → ℝ) (har : ∀ i, ratio i = ((ar i : ℝ) : EReal))
    (hrid : ∀ j : Fin 5494, 0 ≤ (rid (ix1 j)).toInt ∧ (rid (ix1 j)).toInt < 17)
    (b : Fin 2048) (c : Fin 5494) (v : Fin 7) (n : Fin 38458) (hc : n.val / 7 = c.val) (hv : n.val % 7 = v.val) :
    contraction x ratio rid rows cols b n = gridOut x ratio rid rows cols b c v := by
  have hc' : (⟨n.val / 7, by omega⟩ : Fin 5494) = c := Fin.ext hc
  have hv' : (⟨n.val % 7, by omega⟩ : Fin 7) = v := Fin.ext hv
  have e1 : ∀ (w : BitVec 32) (r : Fin 17),
      oneHot w r = (((if w = BitVec.ofNat 32 r.val then (1 : ℝ) else 0 : ℝ)) : EReal) := by
    intro w r; unfold oneHot; split_ifs <;> simp
  have e2 : ∀ (a a' : Fin 7), eye a a' = (((if a = a' then (1 : ℝ) else 0 : ℝ)) : EReal) := by
    intro a a'; unfold eye; split_ifs <;> simp
  unfold contraction gridOut weight coef
  rw [hc', hv']
  simp only [xAt, hxr, har, e1, e2, ← EReal.coe_mul, ← coe_sum]
  congr 1
  exact real_collapse (landing rows cols c) (fun k => xr (ix2 b k)) (fun j => ar (ix1 j)) (fun j => rid (ix1 j))
    (fun j => regionOf (rid (ix1 j))) (fun j r => word_eq_iff _ (hrid j).1 (hrid j).2 r) v

theorem contraction_eq_gridOut (x : FVec Ideal SX .f32) (ratio : FVec Ideal SN .f32) (rid rows cols : IVec SN 32)
    (hx : ∀ i, ∃ r : ℝ, x i = ((r : ℝ) : EReal)) (hratio : ∀ i, ∃ r : ℝ, ratio i = ((r : ℝ) : EReal))
    (hrid : ∀ j : Fin 5494, 0 ≤ (rid (ix1 j)).toInt ∧ (rid (ix1 j)).toInt < 17)
    (b : Fin 2048) (c : Fin 5494) (v : Fin 7) :
    contraction x ratio rid rows cols b ⟨c.val * 7 + v.val, by omega⟩ = gridOut x ratio rid rows cols b c v := by
  choose xr hxr using hx
  choose ar har using hratio
  have hv := v.isLt
  exact contraction_eq_aux x ratio rid rows cols xr hxr ar har hrid b c v ⟨c.val * 7 + v.val, by omega⟩
    (by show (c.val * 7 + v.val) / 7 = c.val; omega) (by show (c.val * 7 + v.val) % 7 = v.val; omega)

end Cert.Gridding

end
-- ==== Proof.Weights.lean ====
/-
  The weight matrix the kernel's host code builds, read at an index.

  Entry `(k, n)` with `k = r · 7 + v'` and `n = c · 7 + v` is `coef c r · [v' = v]`: the one-hot of the region words scaled
  by the ratios is accumulated into grid rows by flat word (dropped when the word is no row), read back for every cell at
  the row its own word names (clamped), transposed, multiplied by the identity on the seven variables along two new
  axes, and flattened row-major from `[17, 7, 5494, 7]` to `[119, 38458]`. The final change of float format is the
  identity at the exact values.
-/
import proofs.«404945_j40939628266083_3_alg».proof.Proof.Gen.KernelIdeal.Frame
import proofs.«404945_j40939628266083_3_alg».proof.Proof.Cells
import proofs.«404945_j40939628266083_3_alg».proof.Proof.Landing
import Idealize.ShloMosaic.Lib.StableHlo.Run
import Idealize.ShloMosaic.Lib.Pipeline.Value
import Idealize.ShloMosaic.Lib.ValueLayout
import Idealize.ShloMosaic.PureOps.Ideal.Laws

noncomputable section

open Idealize.ShloMosaic Idealize.ShloMosaic.ValueIdx Idealize.ShloMosaic.TcCoe Idealize.SL.Sem
open Cert.KernelIdeal Cert.KernelIdeal.Gen

namespace Cert.Gridding

/-! ## The host code's arrays, as functions of the four argument arrays -/

/-- The flat word of every cell before the move of negative words: rows · 67 + cols. -/
private def wordArr (rows cols : IVec S5494 32) : IVec S5494 32 :=
  addi (muli rows (broadcastInDim S5494 ![] bcast_S_S5494 (constantI S_ 32 67#32))) cols

/-- The flat word of every cell, a negative word moved up by 5494, as a column. -/
private def idxArr (rows cols : IVec S5494 32) : IVec S5494x1 32 :=
  broadcastInDim S5494x1 ![0] bcast_S5494_S5494x1_0
    (select (cmpi .slt (wordArr rows cols) (broadcastInDim S5494 ![] bcast_S_S5494 (constantI S_ 32 0#32)))
      (addi (wordArr rows cols) (broadcastInDim S5494 ![] bcast_S_S5494 (constantI S_ 32 5494#32)))
      (wordArr rows cols))

/-- The one-hot of the region words over the 17 regions. -/
private def oneHotArr (rid : IVec S5494 32) : FVec Ideal S5494x17 .f32 :=
  uitofp (F := Ideal) .f32
    (cmpi .eq (broadcastInDim S5494x17 ![0, 1] bcast_S5494x1_S5494x17_0_1 (broadcastInDim S5494x1 ![0] bcast_S5494_S5494x1_0 rid))
      (broadcastInDim S5494x17 ![0, 1] bcast_S1x17_S5494x17_0_1 (iotaInDim S1x17 32 1)))

/-- The one-hot scaled by the ratios. -/
private def dataArr (ratio : FVec Ideal S5494 .f32) (rid : IVec S5494 32) : FVec Ideal S5494x17 .f32 :=
  mulf (F := Ideal) (broadcastInDim S5494x17 ![0, 1] bcast_S5494x1_S5494x17_0_1 (broadcastInDim S5494x1 ![0] bcast_S5494_S5494x1_0 ratio))
    (oneHotArr rid)

/-- The grid table: the scaled one-hot accumulated into rows by flat word. -/
private def gridArr (ratio : FVec Ideal S5494 .f32) (rid rows cols : IVec S5494 32) : FVec Ideal S5494x17 .f32 :=
  Host.scatterAdd (F := Ideal) scatter_S5494x17_S5494x1_S5494x17_1_0_0_1
    (broadcastInDim S5494x17 ![] bcast_S_S5494x17 (constant (F := Ideal) S_ .f32 0x00000000#32))
    (idxArr rows cols) (dataArr ratio rid)

/-- The table read back for every cell at the row its own word names. -/
private def coefArr (ratio : FVec Ideal S5494 .f32) (rid rows cols : IVec S5494 32) : FVec Ideal S5494x17 .f32 :=
  Host.gather gather_S5494x17_S5494x1_S5494x17_1_0_n_n_0_1_117 (gridArr ratio rid rows cols) (idxArr rows cols)

/-- The identity on the seven variables. -/
private def eyeArr : FVec Ideal S7x7 .f32 :=
  uitofp (F := Ideal) .f32
    (cmpi .eq (addi (iotaInDim S7x7 32 0) (broadcastInDim S7x7 ![] bcast_S_S7x7 (constantI S_ 32 0#32))) (iotaInDim S7x7 32 1))

/-- The weight array on four axes. -/
private def w4Arr (ratio : FVec Ideal S5494 .f32) (rid rows cols : IVec S5494 32) : FVec Ideal S17x7x5494x7 .f32 :=
  mulf (F := Ideal)
    (broadcastInDim S17x7x5494x7 ![0, 1, 2, 3] bcast_S17x1x5494x1_S17x7x5494x7_0_1_2_3
      (broadcastInDim S17x1x5494x1 ![0, 2] bcast_S17x5494_S17x1x5494x1_0_2
        (transpose S17x5494 [1, 0] (coefArr ratio rid rows cols) transposes_S5494x17_S17x5494_1_0)))
    (broadcastInDim S17x7x5494x7 ![0, 1, 2, 3] bcast_S1x7x1x7_S17x7x5494x7_0_1_2_3
      (broadcastInDim S1x7x1x7 ![1, 3] bcast_S7x7_S1x7x1x7_1_3 eyeArr))

/-- The weight matrix. -/
private def weightArr (ratio : FVec Ideal S5494 .f32) (rid rows cols : IVec S5494 32) : FVec Ideal S119x38458 .bf16 :=
  truncf .bf16 (shapeCast S119x38458 (w4Arr ratio rid rows cols) shapeCasts_S17x7x5494x7_S119x38458) bitsLt_bf16_f32

/-! ## The broadcasts of this program read at an index -/

private theorem bc_col {α : Type} (x : S5494.Idx → α) (j : Fin 5494) :
    broadcastInDim S5494x1 ![0] Gen.bcast_S5494_S5494x1_0 x (ix2 j 0) = x (ix1 j) :=
  broadcastInDim_apply _ _ x (ix2 j 0) (ix1 j) (fun a => match a with
    | ⟨0, _⟩ => by show j.val = if (5494 : Nat) = 1 then 0 else j.val; rw [if_neg (by decide)])

private theorem bc_colRow {α : Type} (x : S5494x1.Idx → α) (j : Fin 5494) (r : Fin 17) :
    broadcastInDim S5494x17 ![0, 1] Gen.bcast_S5494x1_S5494x17_0_1 x (ix2 j r) = x (ix2 j 0) :=
  broadcastInDim_apply _ _ x (ix2 j r) (ix2 j 0) (fun a => match a with
    | ⟨0, _⟩ => by show j.val = if (5494 : Nat) = 1 then 0 else j.val; rw [if_neg (by decide)]
    | ⟨1, _⟩ => by show 0 = if (1 : Nat) = 1 then 0 else r.val; rw [if_pos rfl])

private theorem bc_rowRow {α : Type} (x : S1x17.Idx → α) (j : Fin 5494) (r : Fin 17) :
    broadcastInDim S5494x17 ![0, 1] Gen.bcast_S1x17_S5494x17_0_1 x (ix2 j r) = x (ix2 0 r) :=
  broadcastInDim_apply _ _ x (ix2 j r) (ix2 0 r) (fun a => match a with
    | ⟨0, _⟩ => by show 0 = if (1 : Nat) = 1 then 0 else j.val; rw [if_pos rfl]
    | ⟨1, _⟩ => by show r.val = if (17 : Nat) = 1 then 0 else r.val; rw [if_neg (by decide)])

/-! ## A one-bit equality test as a number -/

/-- The unsigned value of the bit "a = b", as an extended real, is 1 or 0. -/
private theorem uitofp_cmpi_eq (a b : BitVec 32) :
    (FloatOps.uitofp (F := Ideal) .f32 (IntOp.cmpi .eq a b) : EReal) = if a = b then 1 else 0 := by
  show (((BitVec.ofBool (a == b)).toNat : ℝ) : EReal) = _
  by_cases h : a = b
  · subst h; rw [if_pos rfl]; simp
  · rw [if_neg h]
    have hb : (a == b) = false := by simpa using h
    rw [hb]; simp

/-- Below 2^32 the 32-bit words of two naturals agree only when the naturals do. -/
private theorem ofNat32_inj {a b : Nat} (ha : a < 4294967296) (hb : b < 4294967296) :
    BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-! ## The intermediate arrays read at an index -/

private theorem wordArr_apply (rows cols : IVec S5494 32) (j : Fin 5494) :
    wordArr rows cols (ix1 j) = IntOp.addi (IntOp.muli (rows (ix1 j)) 67#32) (cols (ix1 j)) := rfl

private theorem idxArr_apply (rows cols : IVec S5494 32) (j : Fin 5494) :
    idxArr rows cols (ix2 j 0) = cellWord rows cols j := by
  unfold idxArr
  exact bc_col _ j

private theorem oneHotArr_apply (rid : IVec S5494 32) (j : Fin 5494) (r : Fin 17) :
    oneHotArr rid (ix2 j r) = oneHot (rid (ix1 j)) r := by
  unfold oneHotArr
  show FloatOps.uitofp (F := Ideal) .f32 (IntOp.cmpi .eq
      (broadcastInDim S5494x17 ![0, 1] Gen.bcast_S5494x1_S5494x17_0_1 (broadcastInDim S5494x1 ![0] Gen.bcast_S5494_S5494x1_0 rid) (ix2 j r))
      (broadcastInDim S5494x17 ![0, 1] Gen.bcast_S1x17_S5494x17_0_1 (iotaInDim S1x17 32 1) (ix2 j r))) = _
  rw [bc_colRow, bc_col, bc_rowRow, uitofp_cmpi_eq]
  rfl

private theorem dataArr_apply (ratio : FVec Ideal S5494 .f32) (rid : IVec S5494 32) (j : Fin 5494) (r : Fin 17) :
    dataArr ratio rid (ix2 j r) = ratio (ix1 j) * oneHot (rid (ix1 j)) r := by
  unfold dataArr
  rw [mulf_apply, bc_colRow, bc_col, oneHotArr_apply]

private theorem eyeArr_apply (v' v : Fin 7) : eyeArr (ix2 v' v) = eye v' v := by
  have hiff : BitVec.ofNat 32 v'.val + 0#32 = BitVec.ofNat 32 v.val ↔ v' = v := by
    rw [BitVec.add_zero]
    exact (ofNat32_inj (by omega) (by omega)).trans Fin.val_inj
  show FloatOps.uitofp (F := Ideal) .f32 (IntOp.cmpi .eq (BitVec.ofNat 32 v'.val + 0#32) (BitVec.ofNat 32 v.val))
    = (if v' = v then 1 else 0)
  rw [uitofp_cmpi_eq]
  by_cases h : v' = v
  · rw [if_pos h, if_pos (hiff.mpr h)]
  · rw [if_neg h, if_neg (fun e => h (hiff.mp e))]

/-- The program's scatter record is the accumulation into rows of a two-axis table. -/
private theorem scatter_eq :
    scatter_S5494x17_S5494x1_S5494x17_1_0_0_1
      = Landing.rowScatter 5494 5494 17 Gen.scatter_S5494x17_S5494x1_S5494x17_1_0_0_1_wf := rfl

/-- The program's gather record is the take of rows of a two-axis table. -/
private theorem gather_eq :
    gather_S5494x17_S5494x1_S5494x17_1_0_n_n_0_1_117
      = Landing.rowGather 5494 5494 17 Gen.gather_S5494x17_S5494x1_S5494x17_1_0_n_n_0_1_117_wf := rfl

private theorem gridArr_apply (ratio : FVec Ideal S5494 .f32) (rid rows cols : IVec S5494 32) (i : Fin 5494) (r : Fin 17) :
    gridArr ratio rid rows cols (ix2 i r)
      = ∑ j ∈ Finset.univ.filter (fun j : Fin 5494 => (cellWord rows cols j).toInt = (i.val : ℤ)),
          ratio (ix1 j) * oneHot (rid (ix1 j)) r := by
  unfold gridArr
  rw [scatter_eq]
  refine (Landing.rowScatterAdd_apply _ _ _ _ i r).trans ?_
  have hz : broadcastInDim S5494x17 ![] Gen.bcast_S_S5494x17 (constant (F := Ideal) S_ .f32 0x00000000#32) (ix2 i r) = 0 :=
    Ideal.ofBits_zero_f32
  rw [hz, zero_add]
  refine Finset.sum_congr ?_ (fun j _ => dataArr_apply ratio rid j r)
  refine Finset.filter_congr (fun j _ => ?_)
  rw [idxArr_apply]

private theorem coefArr_apply (ratio : FVec Ideal S5494 .f32) (rid rows cols : IVec S5494 32) (c : Fin 5494) (r : Fin 17) :
    coefArr ratio rid rows cols (ix2 c r) = coef ratio rid rows cols c r := by
  unfold coefArr
  rw [gather_eq]
  refine (Landing.rowGather_apply (by decide) _ _ _ c r).trans ?_
  have hrow : (⟨min (idxArr rows cols (ix2 c 0)).toInt.toNat (5494 - 1), by omega⟩ : Fin 5494) = readRow (cellWord rows cols c) :=
    Fin.ext (by
      show min (idxArr rows cols (ix2 c 0)).toInt.toNat (5494 - 1) = min (cellWord rows cols c).toInt.toNat 5493
      rw [idxArr_apply])
  rw [hrow]
  exact gridArr_apply ratio rid rows cols (readRow (cellWord rows cols c)) r

/-! ## The weight array -/

private theorem w4Arr_apply (ratio : FVec Ideal S5494 .f32) (rid rows cols : IVec S5494 32)
    (r : Fin 17) (v' : Fin 7) (c : Fin 5494) (v : Fin 7) :
    w4Arr ratio rid rows cols (ix4 r v' c v) = coef ratio rid rows cols c r * eye v' v := by
  unfold w4Arr
  rw [mulf_apply]
  have h1 : broadcastInDim S17x7x5494x7 ![0, 1, 2, 3] Gen.bcast_S17x1x5494x1_S17x7x5494x7_0_1_2_3
      (broadcastInDim S17x1x5494x1 ![0, 2] Gen.bcast_S17x5494_S17x1x5494x1_0_2
        (transpose S17x5494 [1, 0] (coefArr ratio rid rows cols) Gen.transposes_S5494x17_S17x5494_1_0)) (ix4 r v' c v)
      = coef ratio rid rows cols c r := by
    refine (broadcastInDim_apply _ _ _ (ix4 r v' c v) (ix4 r 0 c 0) (fun a => match a with
      | ⟨0, _⟩ => by show r.val = if (17 : Nat) = 1 then 0 else r.val; rw [if_neg (by decide)]
      | ⟨1, _⟩ => by show 0 = if (1 : Nat) = 1 then 0 else v'.val; rw [if_pos rfl]
      | ⟨2, _⟩ => by show c.val = if (5494 : Nat) = 1 then 0 else c.val; rw [if_neg (by decide)]
      | ⟨3, _⟩ => by show 0 = if (1 : Nat) = 1 then 0 else v.val; rw [if_pos rfl])).trans ?_
    refine (broadcastInDim_apply _ _ _ (ix4 r 0 c 0) (ix2 r c) (fun a => match a with
      | ⟨0, _⟩ => by show r.val = if (17 : Nat) = 1 then 0 else r.val; rw [if_neg (by decide)]
      | ⟨1, _⟩ => by show c.val = if (5494 : Nat) = 1 then 0 else c.val; rw [if_neg (by decide)])).trans ?_
    refine (transpose_apply [1, 0] _ _ (ix2 r c) (ix2 c r) (fun b => match b with
      | ⟨0, _⟩ => rfl
      | ⟨1, _⟩ => rfl)).trans ?_
    exact coefArr_apply ratio rid rows cols c r
  have h2 : broadcastInDim S17x7x5494x7 ![0, 1, 2, 3] Gen.bcast_S1x7x1x7_S17x7x5494x7_0_1_2_3
      (broadcastInDim S1x7x1x7 ![1, 3] Gen.bcast_S7x7_S1x7x1x7_1_3 eyeArr) (ix4 r v' c v) = eye v' v := by
    refine (broadcastInDim_apply _ _ _ (ix4 r v' c v) (ix4 0 v' 0 v) (fun a => match a with
      | ⟨0, _⟩ => by show 0 = if (1 : Nat) = 1 then 0 else r.val; rw [if_pos rfl]
      | ⟨1, _⟩ => by show v'.val = if (7 : Nat) = 1 then 0 else v'.val; rw [if_neg (by decide)]
      | ⟨2, _⟩ => by show 0 = if (1 : Nat) = 1 then 0 else c.val; rw [if_pos rfl]
      | ⟨3, _⟩ => by show v.val = if (7 : Nat) = 1 then 0 else v.val; rw [if_neg (by decide)])).trans ?_
    refine (broadcastInDim_apply _ _ _ (ix4 0 v' 0 v) (ix2 v' v) (fun a => match a with
      | ⟨0, _⟩ => by show v'.val = if (7 : Nat) = 1 then 0 else v'.val; rw [if_neg (by decide)]
      | ⟨1, _⟩ => by show v.val = if (7 : Nat) = 1 then 0 else v.val; rw [if_neg (by decide)])).trans ?_
    exact eyeArr_apply v' v
  rw [h1, h2]

private theorem wArr_apply (ratio : FVec Ideal S5494 .f32) (rid rows cols : IVec S5494 32) (k : Fin 119) (n : Fin 38458) :
    weightArr ratio rid rows cols (ix2 k n) = weight ratio rid rows cols k n := by
  unfold weightArr
  rw [truncf_apply]
  refine (shapeCast_apply _ _ (ix2 k n)
    (ix4 (⟨k.val / 7, by omega⟩ : Fin 17) (⟨k.val % 7, by omega⟩ : Fin 7) (⟨n.val / 7, by omega⟩ : Fin 5494) (⟨n.val % 7, by omega⟩ : Fin 7)) ?_).trans ?_
  · rewrite [Shape.rowMajor_val_four, Shape.rowMajor_val_two]
    show ((k.val / 7 * 7 + k.val % 7) * 5494 + n.val / 7) * 7 + n.val % 7 = k.val * 38458 + n.val
    omega
  · exact w4Arr_apply ratio rid rows cols _ _ _ _

/-! ## The weight matrix the kernel is launched on -/

/-- The array the host operations before the kernel leave in the weight buffer is `weightArr` of the four argument arrays:
    each operation's result is its function of its operands' results. -/
private theorem V_eq (m : (ℓ : Loc nD τ sig) → Buf (Elt Ideal) ℓ) (c : Dev nD) :
    (V (F := Ideal) m c main_v35 : S119x38458.Idx → EReal)
      = weightArr (m ((c : Thread nD τ).loc main_arg1)) (m ((c : Thread nD τ).loc main_arg2))
          (m ((c : Thread nD τ).loc main_arg3)) (m ((c : Thread nD τ).loc main_arg4)) := by
  dsimp only [Gen.V, Gen.V0]
  simp only [Gen.hostOps0, Gen.hostOps0_1, Gen.hostOps0_2, List.flatten_cons, List.flatten_nil, List.append_nil, List.cons_append, List.nil_append]
  after_results_simp
  rfl

theorem weights_apply (m : (ℓ : Loc nD τ sig) → Buf (Elt Ideal) ℓ) (c : Dev nD) (k : Fin 119) (n : Fin 38458) :
    (V (F := Ideal) m c main_v35 : S119x38458.Idx → EReal) (ix2 k n)
      = weight (m ((c : Thread nD τ).loc main_arg1)) (m ((c : Thread nD τ).loc main_arg2))
          (m ((c : Thread nD τ).loc main_arg3)) (m ((c : Thread nD τ).loc main_arg4)) k n :=
  (congrFun (V_eq m c) (ix2 k n)).trans (wArr_apply _ _ _ _ k n)

end Cert.Gridding

end
-- ==== Proof.Body.lean ====
/-
  What the kernel body stores, read at an index: entry `(p, q)` of the 64 × 38458 output block is the sum over the 119
  contracted columns of the input block's entry `(p, k)` times the weight block's entry `(k, q)` — a matrix product into a
  zero accumulator, the change of float format before it the identity at the exact values.
-/
import proofs.«404945_j40939628266083_3_alg».proof.Proof.Gen.KernelIdeal.Frame
import Idealize.ShloMosaic.Lib.ValueIdx
import Idealize.ShloMosaic.Lib.Pipeline.Value
import Idealize.ShloMosaic.PureOps.Ideal.Laws

noncomputable section

open Idealize.ShloMosaic Idealize.ShloMosaic.ValueIdx Idealize.ShloMosaic.TcCoe Idealize.SL.Sem
open Cert.KernelIdeal Cert.KernelIdeal.Gen

namespace Cert.Gridding

/-- The two zero offsets of a whole-block access are the zero offset function. -/
private theorem hz : (![0, 0] : Fin 2 → Nat) = fun _ => 0 := funext fun a => by fin_cases a <;> rfl

/-! ## Which operand entry each product reads: the dimension numbers contract the left operand's axis 1 with the right
    operand's axis 0, the left operand's axis 0 is the result's row and the right operand's axis 1 the result's column. -/

/-- The left operand's row is the result's row. -/
private theorem lhs_0 (j : S64x38458.Idx) (k : dot_S64x119_S119x38458_S64x38458_1_0_0_1_n_n.contr.Idx) :
    (dot_S64x119_S119x38458_S64x38458_1_0_0_1_n_n.lhsIdx j k 0 : ℕ) = j 0 := by
  simp [DotDims.lhsIdx, dot_S64x119_S119x38458_S64x38458_1_0_0_1_n_n]; rfl

/-- The left operand's column is the contraction position. -/
private theorem lhs_1 (j : S64x38458.Idx) (k : dot_S64x119_S119x38458_S64x38458_1_0_0_1_n_n.contr.Idx) :
    (dot_S64x119_S119x38458_S64x38458_1_0_0_1_n_n.lhsIdx j k 1 : ℕ) = k ⟨0, by decide⟩ :=
  dot_S64x119_S119x38458_S64x38458_1_0_0_1_n_n.lhsIdx_val_of_single (cl := 1) rfl j k

/-- The right operand's row is the contraction position. -/
private theorem rhs_0 (j : S64x38458.Idx) (k : dot_S64x119_S119x38458_S64x38458_1_0_0_1_n_n.contr.Idx) :
    (dot_S64x119_S119x38458_S64x38458_1_0_0_1_n_n.rhsIdx j k 0 : ℕ) = k ⟨0, by decide⟩ :=
  dot_S64x119_S119x38458_S64x38458_1_0_0_1_n_n.rhsIdx_val_of_single (cr := 0) rfl j k

/-- The right operand's column is the result's column. -/
private theorem rhs_1 (j : S64x38458.Idx) (k : dot_S64x119_S119x38458_S64x38458_1_0_0_1_n_n.contr.Idx) :
    (dot_S64x119_S119x38458_S64x38458_1_0_0_1_n_n.rhsIdx j k 1 : ℕ) = j 1 := by
  simp [DotDims.rhsIdx, dot_S64x119_S119x38458_S64x38458_1_0_0_1_n_n]; rfl

/-- The one store covers the whole block from whole-block loads, so the block after the body is the payload of the
    input blocks themselves; the payload at `(p, q)` is the product's sum over the contraction shape (the accumulator
    is the zero splat, `0 + x = x`), whose one axis of extent 119 is `Fin 119`; under that re-indexing term `k` reads
    the left operand at `(p, k)` and the right operand at `(k, q)`, the format change and the same-shape cast before the
    product being the identity at the exact values. -/
theorem out0_2_apply (x0 : Vec Ideal S64x119 .f32) (x1 : Vec Ideal S119x38458 .bf16) (p : Fin 64) (q : Fin 38458) :
    (out0_2 (F := Ideal) x0 x1 : S64x38458.Idx → EReal) (ix2 p q)
      = ∑ k : Fin 119, (x0 (ix2 p k) : EReal) * (x1 (ix2 k q) : EReal) := by
  unfold out0_2
  rw [View.canon_unit_zero hz]
  simp only [View.ld_unit_zero (S := S64x119) hz, View.ld_unit_zero (S := S119x38458) hz]
  unfold k0_pay1
  refine (Ideal.matmul_constant_zero_apply dot_S64x119_S119x38458_S64x38458_1_0_0_1_n_n none _ _ _).trans ?_
  rw [← Equiv.sum_comp (contrEquiv1 dot_S64x119_S119x38458_S64x38458_1_0_0_1_n_n 119 rfl rfl).symm]
  refine Finset.sum_congr rfl fun k _ => ?_
  rw [shapeCast_self]
  refine congrArg₂ (· * ·) (congrArg x0 ?_) (congrArg x1 ?_)
  · exact Shape.idx_ext₂ (lhs_0 _ _) ((lhs_1 _ _).trans (contrEquiv1_symm_val _ _ _ _ _))
  · exact Shape.idx_ext₂ ((rhs_0 _ _).trans (contrEquiv1_symm_val _ _ _ _ _)) (rhs_1 _ _)

end Cert.Gridding

end
-- ==== Proof.Blocks.lean ====
/-
  From the 32 output blocks to the whole array: grid point `t` computes rows `64 t … 64 t + 63` of the 2048 × 38458
  product of `x` with the weight matrix (the weight window is the whole matrix at every point), the blocks tile the rows,
  so after the run the output array is that product.
-/
import proofs.«404945_j40939628266083_3_alg».proof.Proof.Gen.KernelIdeal.Frame
import proofs.«404945_j40939628266083_3_alg».proof.Proof.Body
import Idealize.ShloMosaic.Lib.ValueIdx
import Idealize.ShloMosaic.Lib.Pipeline.Value

noncomputable section

open Idealize.ShloMosaic Idealize.ShloMosaic.ValueIdx Idealize.ShloMosaic.TcCoe Idealize.SL.Sem
open Cert.KernelIdeal Cert.KernelIdeal.Gen

namespace Cert.Gridding

variable (m : (ℓ : Loc nD τ sig) → Buf (Elt Ideal) ℓ)

/-- The batch array as the region finds it. -/
abbrev xArr (c : Dev nD) : S2048x119.Idx → EReal := V (F := Ideal) m c main_arg0
/-- The weight matrix as the region finds it. -/
abbrev wArr (c : Dev nD) : S119x38458.Idx → EReal := V (F := Ideal) m c main_v35

/-- The product of the batch array with the weight matrix. -/
def flatOut (c : Dev nD) : S2048x38458.Idx → EReal :=
  fun i => ∑ k : Fin 119, xArr m c (ix2 ⟨(i 0).val, (i 0).isLt⟩ k) * wArr m c (ix2 k ⟨(i 1).val, (i 1).isLt⟩)

/-- The printed index maps over the grid: point `t` takes row block `t` of the batch array and of the output, and
    block (0, 0) of the weight matrix. -/
private theorem block_indices : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Point `t`'s block of the batch array is its rows `64 t … 64 t + 63`. -/
private theorem xblock_apply (c : Dev nD) (t : Fin cfg0.N) (y : S64x119.Idx) (i : S2048x119.Idx)
    (h0 : (i 0).val = 64 * t.val + (y 0).val) (h1 : (i 1).val = (y 1).val) :
    (iblk (F := Ideal) m c 0 t : S64x119.Idx → EReal) y = xArr m c i := by
  obtain ⟨-, -, e0, e1, -, -⟩ := block_indices t
  unfold iblk
  show V (F := Ideal) m c main_arg0 (((cfg0.win 0).blk t).view.emb y) = V (F := Ideal) m c main_arg0 i
  refine congrArg (V (F := Ideal) m c main_arg0) ?_
  funext a; apply Fin.ext
  match a with
  | ⟨0, _⟩ => show win0_0.index t (0 : Fin 2) * 64 + 1 * (y 0).val = (i 0).val; omega
  | ⟨1, _⟩ => show win0_0.index t (1 : Fin 2) * 119 + 1 * (y 1).val = (i 1).val; omega

/-- Every point's block of the weight matrix is the whole matrix. -/
private theorem wblock_apply (c : Dev nD) (t : Fin cfg0.N) (y : S119x38458.Idx) :
    (iblk (F := Ideal) m c 1 t : S119x38458.Idx → EReal) y = wArr m c y := by
  obtain ⟨-, -, -, -, e0, e1⟩ := block_indices t
  unfold iblk
  show V (F := Ideal) m c main_v35 (((cfg0.win 1).blk t).view.emb y) = V (F := Ideal) m c main_v35 y
  refine congrArg (V (F := Ideal) m c main_v35) ?_
  funext a; apply Fin.ext
  match a with
  | ⟨0, _⟩ => show win0_1.index t (0 : Fin 2) * 119 + 1 * (y 0).val = (y 0).val; omega
  | ⟨1, _⟩ => show win0_1.index t (1 : Fin 2) * 38458 + 1 * (y 1).val = (y 1).val; omega

/-- Rows `64 t … 64 t + 63` of the product from the blocks: when the first operand is rows `64 t … 64 t + 63` of the batch
    array and the second is the weight matrix, entry `y` of the body's result is entry `(64 t + y₀, y₁)` of the product. -/
private theorem rows_apply (c : Dev nD) (t : Fin cfg0.N) (x0 : Vec Ideal S64x119 .f32) (x1 : Vec Ideal S119x38458 .bf16)
    (hx : ∀ (y : S64x119.Idx) (i : S2048x119.Idx), (i 0).val = 64 * t.val + (y 0).val → (i 1).val = (y 1).val →
      (x0 y : EReal) = xArr m c i)
    (hw : ∀ y : S119x38458.Idx, (x1 y : EReal) = wArr m c y)
    (y : S64x38458.Idx) (i : S2048x38458.Idx) (h0 : (i 0).val = 64 * t.val + (y 0).val) (h1 : (i 1).val = (y 1).val) :
    (out0_2 (F := Ideal) x0 x1 : S64x38458.Idx → EReal) y = flatOut m c i := by
  have hy : y = ix2 (n0 := 64) (n1 := 38458) (y 0) (y 1) := eq_ix2 (n0 := 64) (n1 := 38458) y
  rw [hy]
  refine (out0_2_apply x0 x1 (y 0) (y 1)).trans ?_
  show _ = ∑ k : Fin 119, xArr m c (ix2 ⟨(i 0).val, (i 0).isLt⟩ k) * wArr m c (ix2 k ⟨(i 1).val, (i 1).isLt⟩)
  refine Finset.sum_congr rfl fun k _ => ?_
  rw [hx (ix2 (n0 := 64) (n1 := 119) (y 0) k) (ix2 ⟨(i 0).val, (i 0).isLt⟩ k) h0 rfl,
    hw (ix2 (n0 := 119) (n1 := 38458) k (y 1))]
  exact congrArg (fun q : Fin 38458 => xArr m c (ix2 ⟨(i 0).val, (i 0).isLt⟩ k) * wArr m c (ix2 k q)) (Fin.ext h1.symm)

/-- What point `t` writes back is block `t` of the product. -/
private theorem flushed_eq (c : Dev nD) (t : Fin cfg0.N) :
    (dats (F := Ideal) m 0 c).flushed 2 t = ((cfg0.win 2).blk t).view.read (Elt Ideal) (flatOut m c) := by
  show (cfg0.win 2).cut (grid0.coords t) ((dats (F := Ideal) m 0 c).after 2 t) = _
  rw [after0_2]
  obtain ⟨e0, e1, -⟩ := block_indices t
  funext y
  show (out0_2 (F := Ideal) (iblk m c 0 t) (iblk m c 1 t) : S64x38458.Idx → EReal) ((cfg0.win 2).xinj (grid0.coords t) y)
    = flatOut m c (((cfg0.win 2).blk t).view.emb y)
  refine rows_apply m c t (iblk m c 0 t) (iblk m c 1 t) (xblock_apply m c t) (wblock_apply m c t)
    ((cfg0.win 2).xinj (grid0.coords t) y) (((cfg0.win 2).blk t).view.emb y) ?_ ?_
  · show win0_2.index t (0 : Fin 2) * 64 + 1 * (y 0).val = 64 * t.val + (y 0).val; omega
  · show win0_2.index t (1 : Fin 2) * 38458 + 1 * (y 1).val = (y 1).val; omega

/-- An index of the output array is in point `t`'s block iff each coordinate is in the block's range on its axis. -/
private theorem mem_block (t : Fin cfg0.N) (i : S2048x38458.Idx) :
    i ∈ ((cfg0.win 2).blk t).view.set ↔ ∀ a : Fin 2, win0_2.index t a * S64x38458.size a ≤ (i a).val
      ∧ (i a).val < win0_2.index t a * S64x38458.size a + S64x38458.size a := by
  show i ∈ ((View.whole main_v36).slice (win0_2.rect t)).set ↔ _
  rw [View.set_slice_whole, Rect.mem_set_unit]
  exact Iff.rfl

/-- The blocks tile the rows: row `r` is in the block of point `r / 64`. -/
private theorem covered (i : S2048x38458.Idx) :
    ∃ t : Fin cfg0.N, (cfg0.win 2).flush t = true ∧ i ∈ ((cfg0.win 2).blk t).view.set := by
  have hN : grid0.N = 32 := N_0
  have hi0 : (i 0).val < 2048 := (i 0).isLt
  have hi1 : (i 1).val < 38458 := (i 1).isLt
  obtain ⟨t, ht⟩ : ∃ t : Fin cfg0.N, t.val = (i 0).val / 64 :=
    ⟨⟨(i 0).val / 64, by show (i 0).val / 64 < grid0.N; omega⟩, rfl⟩
  obtain ⟨e0, e1, -⟩ := block_indices t
  refine ⟨t, flush0_2 t, ?_⟩
  rw [mem_block]
  intro a
  match a with
  | ⟨0, _⟩ =>
    show win0_2.index t (0 : Fin 2) * 64 ≤ (i 0).val ∧ (i 0).val < win0_2.index t (0 : Fin 2) * 64 + 64
    omega
  | ⟨1, _⟩ =>
    show win0_2.index t (1 : Fin 2) * 38458 ≤ (i 1).val ∧ (i 1).val < win0_2.index t (1 : Fin 2) * 38458 + 38458
    omega

/-- After the run the output array is the product. -/
theorem final (c : Dev nD) : ((dats (F := Ideal) m 0 c).arrAt 2 cfg0.N : S2048x38458.Idx → EReal) = flatOut m c :=
  (dats (F := Ideal) m 0 c).arrAt_eq_of_cover 2 (flatOut m c) (fun t _ => flushed_eq m c t) covered

end Cert.Gridding

end
-- ==== Proof.KernelValue.lean ====
/-
  The kernel's result array.

  After the region the output array is the product of the batch array with the weight matrix (`final`); the one host
  operation after the region re-lays `[2048, 38458]` as `[2048, 5494, 1, 7]`, so entry `(b, c, 0, v)` is the product's
  entry `(b, c · 7 + v)`: the contraction of batch row `b` with weight column `c · 7 + v`, which under the precondition
  (finite entries, region words in `[0, 17)`) is the gridded sum.
-/
import proofs.«404945_j40939628266083_3_alg».proof.Proof.Gen.KernelIdeal.Frame
import proofs.«404945_j40939628266083_3_alg».proof.Proof.Gen.Pre_finite_inputs
import proofs.«404945_j40939628266083_3_alg».proof.Proof.Cells
import proofs.«404945_j40939628266083_3_alg».proof.Proof.Algebra
import proofs.«404945_j40939628266083_3_alg».proof.Proof.Finite
import proofs.«404945_j40939628266083_3_alg».proof.Proof.Weights
import proofs.«404945_j40939628266083_3_alg».proof.Proof.Blocks
import Idealize.ShloMosaic.Lib.StableHlo.Run
import Idealize.ShloMosaic.Lib.Pipeline.Value

noncomputable section

open Idealize.ShloMosaic Idealize.ShloMosaic.ValueIdx Idealize.ShloMosaic.TcCoe Idealize.SL.Sem
open Cert.KernelIdeal Cert.KernelIdeal.Gen

namespace Cert.Gridding

variable (m : (ℓ : Loc nD τ sig) → Buf (Elt Ideal) ℓ)

/-- The result buffer after the host operation that follows the region: the output array re-laid. -/
theorem tail_eq (c : Dev nD) :
    (Pipeline.afterTail₀ cfgs (dats (F := Ideal) m) 0 (V0 m) [hostOps1] c main_v37 : S2048x5494x1x7.Idx → EReal)
      = shapeCast S2048x5494x1x7 (flatOut m c) shapeCasts_S2048x38458_S2048x5494x1x7 := by
  have h : (Pipeline.afterTail₀ cfgs (dats (F := Ideal) m) 0 (V0 m) [hostOps1] c main_v37 : S2048x5494x1x7.Idx → EReal)
      = shapeCast S2048x5494x1x7 ((dats (F := Ideal) m 0 c).arrAt 2 cfg0.N : S2048x38458.Idx → EReal)
          shapeCasts_S2048x38458_S2048x5494x1x7 := by
    unfold Pipeline.afterTail₀
    show StableHlo.after hostOps1 _ (Proc.devRef .tc main_v37) = _
    after_results
    have hw : Pipeline.withArrays (cfgs 0).spec c (V0 m c) (fun w => (dats (F := Ideal) m 0 c).arrAt w (cfgs 0).N)
        (Proc.tc.devRef main_v36) = (dats (F := Ideal) m 0 c).arrAt 2 (cfgs 0).N :=
      Pipeline.withArrays_arr spec0 launch0.win.arr_inj c (V0 m c) _ 2
    rw [hw]
    rfl
  exact h.trans (congrArg (fun a => shapeCast S2048x5494x1x7 a shapeCasts_S2048x38458_S2048x5494x1x7) (final m c))

/-- The re-laying read at an index: `(b, c, 0, v)` of the result is `(b, c · 7 + v)` of the flat array. -/
theorem relay_apply (y : S2048x38458.Idx → EReal) (b : Fin 2048) (cell : Fin 5494) (z : Fin 1) (v : Fin 7) :
    shapeCast S2048x5494x1x7 y shapeCasts_S2048x38458_S2048x5494x1x7 (ix4 b cell z v)
      = y (ix2 b ⟨cell.val * 7 + v.val, by omega⟩) :=
  shapeCast_apply y shapeCasts_S2048x38458_S2048x5494x1x7 (ix4 b cell z v) (ix2 b ⟨cell.val * 7 + v.val, by omega⟩)
    (by rewrite [Shape.rowMajor_val_two, Shape.rowMajor_val_four]
        have hz : z.val = 0 := by omega
        show b.val * 38458 + (cell.val * 7 + v.val) = ((b.val * 5494 + cell.val) * 1 + z.val) * 7 + v.val
        omega)

/-- Under the precondition the kernel's result array is the gridded sum of the arguments. -/
theorem kernel_out_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      = fun _ => 1#1) :
    (Pipeline.afterTail₀ cfgs (dats (F := Ideal) m) 0 (V0 m) [hostOps1] c main_v37 : S2048x5494x1x7.Idx → EReal)
      = gridOutArr (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  obtain ⟨hx, hratio, hrid⟩ := of_pre _ _ _ _ _ hpre
  rw [tail_eq]
  funext i
  obtain ⟨b, cell, z, v, rfl⟩ : ∃ (b : Fin 2048) (cell : Fin 5494) (z : Fin 1) (v : Fin 7), i = ix4 b cell z v :=
    ⟨i 0, i 1, i 2, i 3, eq_ix4 i⟩
  rw [relay_apply]
  show ∑ k : Fin 119, xArr m c (ix2 b k) * wArr m c (ix2 k ⟨cell.val * 7 + v.val, by omega⟩) = gridOut _ _ _ _ _ b cell v
  rw [← contraction_eq_gridOut _ _ _ _ _ hx hratio hrid b cell v]
  unfold contraction
  refine Finset.sum_congr rfl fun k _ => ?_
  rw [← weights_apply m c k ⟨cell.val * 7 + v.val, by omega⟩]
  exact congrArg (fun a : S2048x119.Idx → EReal => a (ix2 b k) * wArr m c (ix2 k ⟨cell.val * 7 + v.val, by omega⟩)) (V_main_arg0 m c)

/-- THE KERNEL'S RUN with its result named: every weakly fair execution terminates with the result buffer at the
    gridded sum of the arguments, the arguments unchanged. -/
theorem kernel_run (ρ : Dev nD → PrngReg)
    (hpre : ∀ c : Dev nD, Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      = fun _ => 1#1) :
    θ_run defs (onTc (τ := τ) (main (F := Ideal))) ⟨m, fun _ => 0, ρ⟩ (fun r => ∀ c : Dev nD,
      r.2.mem ((c.tc : Thread nD τ).loc main_v37)
        = gridOutArr (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v37 (Pipeline.mem_restRefs_of main_v37 (by decide) (by decide))).trans (kernel_out_eq m c (hpre c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.Gridding

end
-- ==== Proof.lean ====
/-
  The gridding layer: the Pallas kernel against its jnp reference, over the extended reals.

  Every one of 5494 allocation cells adds `x[b, region, v] · ratio` into the grid row its flat word names, and every cell
  reads back the grid row its own word names. The reference does exactly that with a take, a scatter-add and a take. The
  kernel builds, on the host, a 119 × 38458 weight matrix whose entry at `(r · 7 + v', c · 7 + v)` is the sum of the ratios of
  the cells of region `r` that land on the row `c` reads, times `[v' = v]`, and its one pallas_call multiplies the batch
  array by it, 64 rows at a grid point; a final re-laying gives the result its shape. Under the precondition — every
  float finite, every region word in `[0, 17)`, where the one-hot of a region word and the clamped take of the reference
  name the same region — the product's entry `(b, c · 7 + v)` is the gridded sum (distributing `x` over a finite sum of
  reals), which is what the reference computes: both runs end at `Gridding.gridOutArr` of the arguments.

  The three frames are the generated ones (the reference's from its generated run); the idealization rewrote nothing,
  so `preserves` holds trivially.
-/
import proofs.«404945_j40939628266083_3_alg».proof.Defs
import proofs.«404945_j40939628266083_3_alg».proof.Proof.Gen.Kernel
import proofs.«404945_j40939628266083_3_alg».proof.Proof.Gen.Kernel.Skeleton
import proofs.«404945_j40939628266083_3_alg».proof.Proof.Gen.Kernel.Launch
import proofs.«404945_j40939628266083_3_alg».proof.Proof.Gen.Kernel.Points
import proofs.«404945_j40939628266083_3_alg».proof.Proof.Gen.Kernel.Frame
import proofs.«404945_j40939628266083_3_alg».proof.Proof.Gen.KernelIdeal
import proofs.«404945_j40939628266083_3_alg».proof.Proof.Gen.KernelIdeal.Skeleton
import proofs.«404945_j40939628266083_3_alg».proof.Proof.Gen.KernelIdeal.Launch
import proofs.«404945_j40939628266083_3_alg».proof.Proof.Gen.KernelIdeal.Points
import proofs.«404945_j40939628266083_3_alg».proof.Proof.Gen.KernelIdeal.Frame
import proofs.«404945_j40939628266083_3_alg».proof.Proof.Gen.ReferenceIdeal
import proofs.«404945_j40939628266083_3_alg».proof.Proof.Gen.Pre_finite_inputs
import proofs.«404945_j40939628266083_3_alg».proof.Proof.Gen.ReferenceIdeal.Run
import proofs.«404945_j40939628266083_3_alg».proof.Proof.Gen.ReferenceIdeal.Read
import proofs.«404945_j40939628266083_3_alg».proof.Proof.Cells
import proofs.«404945_j40939628266083_3_alg».proof.Proof.Finite
import proofs.«404945_j40939628266083_3_alg».proof.Proof.RefValue
import proofs.«404945_j40939628266083_3_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the gridded sum of the arguments in their result. -/
theorem algebraic : Cert.algebraic_KernelIdeal_ReferenceIdeal := by
  intro m ρ m' ρ' hpre hagree
  refine ⟨_, Cert.Gridding.kernel_run m ρ hpre, ?_⟩
  refine (θ_run Cert.ReferenceIdeal.defs _ _).mono (fun _ h c => ⟨?_, (h c).2⟩)
    (Cert.ReferenceIdeal.Value.run (F := Ideal) m' ρ')
  obtain ⟨_, _, hrid⟩ := Cert.Gridding.of_pre _ _ _ _ _ (hpre c)
  rw [(h c).1, Cert.ReferenceIdeal.Read.val_main_v29_eq, (hagree c).1, (hagree c).2.1, (hagree c).2.2.1,
    (hagree c).2.2.2.1, (hagree c).2.2.2.2]
  exact Cert.Gridding.ref_eq_gridOutArr _ _ _ _ _ hrid

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
